-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4 : Shape := ⟨2, ![1000000, 4]⟩
abbrev S1000000x1 : Shape := ⟨2, ![1000000, 1]⟩
abbrev S9x30 : Shape := ⟨2, ![9, 30]⟩
abbrev S30 : Shape := ⟨1, ![30]⟩
abbrev S30x30 : Shape := ⟨2, ![30, 30]⟩
abbrev S30x1 : Shape := ⟨2, ![30, 1]⟩
abbrev S1 : Shape := ⟨1, ![1]⟩
abbrev S_ : Shape := ⟨0, ![]⟩

class Facts : Prop where
  bcast_S_S1000000x4 : S_.BroadcastsInDim S1000000x4 (![] : Fin 0 → Fin S1000000x4.rank)
  reducesTo_S1000000x4_S_d0_1 : S1000000x4.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S9x30 : S_.BroadcastsInDim S9x30 (![] : Fin 0 → Fin S9x30.rank)
  reducesTo_S9x30_S_d0_1 : S9x30.ReducesTo [0, 1] S_
  bcast_S_S30 : S_.BroadcastsInDim S30 (![] : Fin 0 → Fin S30.rank)
  reducesTo_S30_S_d0 : S30.ReducesTo [0] S_
  bcast_S_S30x30 : S_.BroadcastsInDim S30x30 (![] : Fin 0 → Fin S30x30.rank)
  reducesTo_S30x30_S_d0_1 : S30x30.ReducesTo [0, 1] S_
  bcast_S_S30x1 : S_.BroadcastsInDim S30x1 (![] : Fin 0 → Fin S30x1.rank)
  reducesTo_S30x1_S_d0_1 : S30x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S30x30 .f32) (main_arg8 : FVec F S30 .f32) (main_arg9 : FVec F S30x1 .f32) (main_arg10 : FVec F S1 .f32) (main_v33 : IVec S_ 1) : IVec S_ 1 :=
  let main_v34 : FVec F S30x30 .f32 := Host.absf main_arg7
  let main_cst_12 : FVec F S_ .f32 := constant S_ .f32 0x7F800000#32
  let main_v35 : FVec F S30x30 .f32 := broadcastInDim S30x30 ![] bcast_S_S30x30 main_cst_12
  let main_v36 : IVec S30x30 1 := cmpf .olt main_v34 main_v35
  let main_c_13 : IVec S_ 1 := constantI S_ 1 1#1
  let main_v37 : IVec S_ 1 := (fun x v => Host.reduce IntOp.andi x v reducesTo_S30x30_S_d0_1 h_S_) main_v36 main_c_13
  let main_v38 : IVec S_ 1 := andi main_v33 main_v37
  let main_v39 : FVec F S30 .f32 := Host.absf main_arg8
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  let main_v44 : FVec F S30x1 .f32 := Host.absf main_arg9
  let main_cst_16 : FVec F S_ .f32 := constant S_ .f32 0x7F800000#32
  let main_v45 : FVec F S30x1 .f32 := broadcastInDim S30x1 ![] bcast_S_S30x1 main_cst_16
  let main_v46 : IVec S30x1 1 := cmpf .olt main_v44 main_v45
  let main_c_17 : IVec S_ 1 := constantI S_ 1 1#1
  let main_v47 : IVec S_ 1 := (fun x v => Host.reduce IntOp.andi x v reducesTo_S30x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S30 .f32) (main_arg5 : FVec F S30x30 .f32) (main_arg6 : FVec F S30 .f32) (main_arg7 : FVec F S30x30 .f32) (main_arg8 : FVec F S30 .f32) (main_arg9 : FVec F S30x1 .f32) (main_arg10 : FVec F S1 .f32) (main_v13 : IVec S_ 1) (main_v16 : IVec S9x30 1) : IVec S_ 1 :=
  let main_c_5 : IVec S_ 1 := constantI S_ 1 1#1
  let main_v17 : IVec S_ 1 := (fun x v => Host.reduce IntOp.andi x v reducesTo_S9x30_S_d0_1 h_S_) main_v16 main_c_5
  let main_v18 : IVec S_ 1 := andi main_v13 main_v17
  let main_v19 : FVec F S30 .f32 := Host.absf main_arg4
  let main_cst_6 : FVec F S_ .f32 := constant S_ .f32 0x7F800000#32
  let main_v20 : FVec F S30 .f32 := broadcastInDim S30 ![] bcast_S_S30 main_cst_6
  let main_v21 : IVec S30 1 := cmpf .olt main_v19 main_v20
  let main_c_7 : IVec S_ 1 := constantI S_ 1 1#1
  let main_v22 : IVec S_ 1 := (fun x v => Host.reduce IntOp.andi x v reducesTo_S30_S_d0 h_S_) main_v21 main_c_7
  let main_v23 : IVec S_ 1 := andi main_v18 main_v22
  let main_v24 : FVec F S30x30 .f32 := Host.absf main_arg5
  let main_cst_8 : FVec F S_ .f32 := constant S_ .f32 0x7F800000#32
  let main_v25 : FVec F S30x30 .f32 := broadcastInDim S30x30 ![] bcast_S_S30x30 main_cst_8
  let main_v26 : IVec S30x30 1 := cmpf .olt main_v24 main_v25
  let main_c_9 : IVec S_ 1 := constantI S_ 1 1#1
  let main_v27 : IVec S_ 1 := (fun x v => Host.reduce IntOp.andi x v reducesTo_S30x30_S_d0_1 h_S_) main_v26 main_c_9
  let main_v28 : IVec S_ 1 := andi main_v23 main_v27
  let main_v29 : FVec F S30 .f32 := Host.absf main_arg6
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1000000x4 .f32) (main_arg1 : FVec F S1000000x1 .f32) (main_arg2 : FVec F S1000000x4 .f32) (main_arg3 : FVec F S9x30 .f32) (main_arg4 : FVec F S30 .f32) (main_arg5 : FVec F S30x30 .f32) (main_arg6 : FVec F S30 .f32) (main_arg7 : FVec F S30x30 .f32) (main_arg8 : FVec F S30 .f32) (main_arg9 : FVec F S30x1 .f32) (main_arg10 : FVec F S1 .f32) : IVec S_ 1 :=
  let main_v0 : FVec F S1000000x4 .f32 := Host.absf main_arg0
  let main_cst : FVec F S_ .f32 := constant S_ .f32 0x7F800000#32
  let main_v1 : FVec F S1000000x4 .f32 := broadcastInDim S1000000x4 ![] bcast_S_S1000000x4 main_cst
  let main_v2 : IVec S1000000x4 1 := cmpf .olt main_v0 main_v1
  let main_c : IVec S_ 1 := constantI S_ 1 1#1
  let main_v3 : IVec S_ 1 := (fun x v => Host.reduce IntOp.andi x v reducesTo_S1000000x4_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S1000000x4 .f32 := Host.absf main_arg2
  let main_cst_2 : FVec F S_ .f32 := constant S_ .f32 0x7F800000#32
  let main_v10 : FVec F S1000000x4 .f32 := broadcastInDim S1000000x4 ![] bcast_S_S1000000x4 main_cst_2
  let main_v11 : IVec S1000000x4 1 := cmpf .olt main_v9 main_v10
  let main_c_3 : IVec S_ 1 := constantI S_ 1 1#1
  let main_v12 : IVec S_ 1 := (fun x v => Host.reduce IntOp.andi x v reducesTo_S1000000x4_S_d0_1 h_S_) main_v11 main_c_3
  let main_v13 : IVec S_ 1 := andi main_v8 main_v12
  let main_v14 : FVec F S9x30 .f32 := Host.absf main_arg3
  let main_cst_4 : FVec F S_ .f32 := constant S_ .f32 0x7F800000#32
  let main_v15 : FVec F S9x30 .f32 := broadcastInDim S9x30 ![] bcast_S_S9x30 main_cst_4
  let main_v16 : IVec S9x30 1 := cmpf .olt main_v14 main_v15
  fn_part1 (F := F) main_arg4 main_arg5 main_arg6 main_arg7 main_arg8 main_arg9 main_arg10 main_v13 main_v16
-- ==== Kernel.lean ====
abbrev S1000000x4 : Shape := ⟨2, ![1000000, 4]⟩
abbrev S1000000x1 : Shape := ⟨2, ![1000000, 1]⟩
abbrev S9x30 : Shape := ⟨2, ![9, 30]⟩
abbrev S30 : Shape := ⟨1, ![30]⟩
abbrev S30x30 : Shape := ⟨2, ![30, 30]⟩
abbrev S30x1 : Shape := ⟨2, ![30, 1]⟩
abbrev S1 : Shape := ⟨1, ![1]⟩
abbrev S1x30 : Shape := ⟨2, ![1, 30]⟩
abbrev S1x1 : Shape := ⟨2, ![1, 1]⟩
abbrev S30x9 : Shape := ⟨2, ![30, 9]⟩
abbrev S2000x4 : Shape := ⟨2, ![2000, 4]⟩
abbrev S2000x1 : Shape := ⟨2, ![2000, 1]⟩
abbrev S2000x9 : Shape := ⟨2, ![2000, 9]⟩
abbrev S2000x30 : Shape := ⟨2, ![2000, 30]⟩
abbrev S1000000x1x4 : Shape := ⟨3, ![1000000, 1, 4]⟩
abbrev S1000000x1x1 : Shape := ⟨3, ![1000000, 1, 1]⟩

abbrev nBuf : Space → Nat
  | .hbm => 34
  | .vmem => 26
  | .smem => 0
  | _ => 0

abbrev bufTy : (tb : Table) → Fin (tcTables nBuf tb) → BufTy
  | .hbm, ⟨0, _⟩ => ⟨S1000000x4, .f32⟩
  | .hbm, ⟨1, _⟩ => ⟨S1000000x1, .f32⟩
  | .hbm, ⟨2, _⟩ => ⟨S1000000x4, .f32⟩
  | .hbm, ⟨3, _⟩ => ⟨S9x30, .f32⟩
  | .hbm, ⟨4, _⟩ => ⟨S30, .f32⟩
  | .hbm, ⟨5, _⟩ => ⟨S30x30, .f32⟩
  | .hbm, ⟨6, _⟩ => ⟨S30, .f32⟩
  | .hbm, ⟨7, _⟩ => ⟨S30x30, .f32⟩
  | .hbm, ⟨8, _⟩ => ⟨S30, .f32⟩
  | .hbm, ⟨9, _⟩ => ⟨S30x1, .f32⟩
  | .hbm, ⟨10, _⟩ => ⟨S1, .f32⟩
  | .hbm, ⟨11, _⟩ => ⟨S1x30, .f32⟩
  | .hbm, ⟨12, _⟩ => ⟨S1x30, .f32⟩
  | .hbm, ⟨13, _⟩ => ⟨S1x30, .f32⟩
  | .hbm, ⟨14, _⟩ => ⟨S1x1, .f32⟩
  | .hbm, ⟨15, _⟩ => ⟨S9x30, .bf16⟩
  | .hbm, ⟨16, _⟩ => ⟨S30x30, .bf16⟩
  | .hbm, ⟨17, _⟩ => ⟨S30x30, .bf16⟩
  | .hbm, ⟨18, _⟩ => ⟨S30x1, .bf16⟩
  | .hbm, ⟨19, _⟩ => ⟨S30x9, .f32⟩
  | .hbm, ⟨20, _⟩ => ⟨S30x9, .bf16⟩
  | .hbm, ⟨21, _⟩ => ⟨S30x30, .f32⟩
  | .hbm, ⟨22, _⟩ => ⟨S30x30, .bf16⟩
  | .hbm, ⟨23, _⟩ => ⟨S30x30, .f32⟩
  | .hbm, ⟨24, _⟩ => ⟨S30x30, .bf16⟩
  | .hbm, ⟨25, _⟩ => ⟨S30, .f32⟩
  | .hbm, ⟨26, _⟩ => ⟨S1x30, .f32⟩
  | .hbm, ⟨27, _⟩ => ⟨S1000000x1, .f32⟩
  | .hbm, ⟨28, _⟩ => ⟨S1000000x4, .f32⟩
  | .hbm, ⟨29, _⟩ => ⟨S1000000x1, .f32⟩
  | .hbm, ⟨30, _⟩ => ⟨S1000000x4, .f32⟩
  | .hbm, ⟨31, _⟩ => ⟨S1000000x1x4, .f32⟩
  | .hbm, ⟨32, _⟩ => ⟨S1000000x1x1, .f32⟩
  | .hbm, ⟨33, _⟩ => ⟨S1000000x1x4, .f32⟩
  | .local _ .vmem, ⟨0, _⟩ => ⟨S2000x4, .f32⟩
  | .local _ .vmem, ⟨1, _⟩ => ⟨S2000x4, .f32⟩
  | .local _ .vmem, ⟨2, _⟩ => ⟨S2000x1, .f32⟩
  | .local _ .vmem, ⟨3, _⟩ => ⟨S2000x1, .f32⟩
  | .local _ .vmem, ⟨4, _⟩ => ⟨S2000x4, .f32⟩
  | .local _ .vmem, ⟨5, _⟩ => ⟨S2000x4, .f32⟩
  | .local _ .vmem, ⟨6, _⟩ => ⟨S9x30, .bf16⟩
  | .local _ .vmem, ⟨7, _⟩ => ⟨S1x30, .f32⟩
  | .local _ .vmem, ⟨8, _⟩ => ⟨S30x30, .bf16⟩
  | .local _ .vmem, ⟨9, _⟩ => ⟨S1x30, .f32⟩
  | .local _ .vmem, ⟨10, _⟩ => ⟨S30x30, .bf16⟩
  | .local _ .vmem, ⟨11, _⟩ => ⟨S1x30, .f32⟩
  | .local _ .vmem, ⟨12, _⟩ => ⟨S30x1, .bf16⟩
  | .local _ .vmem, ⟨13, _⟩ => ⟨S1x1, .f32⟩
  | .local _ .vmem, ⟨14, _⟩ => ⟨S30x9, .bf16⟩
  | .local _ .vmem, ⟨15, _⟩ => ⟨S30x30, .bf16⟩
  | .local _ .vmem, ⟨16, _⟩ => ⟨S30x30, .bf16⟩
  | .local _ .vmem, ⟨17, _⟩ => ⟨S1x30, .f32⟩
  | .local _ .vmem, ⟨18, _⟩ => ⟨S2000x1, .f32⟩
  | .local _ .vmem, ⟨19, _⟩ => ⟨S2000x1, .f32⟩
  | .local _ .vmem, ⟨20, _⟩ => ⟨S2000x4, .f32⟩
  | .local _ .vmem, ⟨21, _⟩ => ⟨S2000x4, .f32⟩
  | .local _ .vmem, ⟨22, _⟩ => ⟨S2000x1, .f32⟩
  | .local _ .vmem, ⟨23, _⟩ => ⟨S2000x1, .f32⟩
  | .local _ .vmem, ⟨24, _⟩ => ⟨S2000x4, .f32⟩
  | .local _ .vmem, ⟨25, _⟩ => ⟨S2000x4, .f32⟩
  | _, _ => ⟨S1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x30 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x30 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S30x30 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x30 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S30x30 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S30x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S30x9 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S30x30 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S30x30 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x30 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2000x4 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2000x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2000x4 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S30_S1x30 : S30.ShapeCasts S1x30
  shapeCasts_S1_S1x1 : S1.ShapeCasts S1x1
  bitsLt_bf16_f32 : FTy.bits .bf16 < FTy.bits .f32
  transposes_S9x30_S30x9_1_0 : S9x30.Transposes [1, 0] S30x9
  transposes_S30x30_S30x30_1_0 : S30x30.Transposes [1, 0] S30x30
  shapeCasts_S30x1_S30 : S30x1.ShapeCasts S30
  inb_S2000x4_S2000x4_0_0 : ∀ a, (![0, 0] : Fin 2 → Nat) a + S2000x4.size a ≤ S2000x4.size a
  h_S2000x4 : 0 < S2000x4.numel
  inb_S2000x1_S2000x1_0_0 : ∀ a, (![0, 0] : Fin 2 → Nat) a + S2000x1.size a ≤ S2000x1.size a
  h_S2000x1 : 0 < S2000x1.numel
  concatenates_S2000x4_S2000x1_S2000x4_S2000x9_d1 : Shape.Concatenates [S2000x4, S2000x1, S2000x4] S2000x9 1
  inb_S9x30_S9x30_0_0 : ∀ a, (![0, 0] : Fin 2 → Nat) a + S9x30.size a ≤ S9x30.size a
  h_S9x30 : 0 < S9x30.numel
  shapeCasts_S9x30_S9x30 : S9x30.ShapeCasts S9x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S2000x30 : S1x30.Broadcasts S2000x30
  inb_S30x30_S30x30_0_0 : ∀ a, (![0, 0] : Fin 2 → Nat) a + S30x30.size a ≤ S30x30.size a
  h_S30x30 : 0 < S30x30.numel
  shapeCasts_S30x30_S30x30 : S30x30.ShapeCasts S30x30
  inb_S30x1_S30x1_0_0 : ∀ a, (![0, 0] : Fin 2 → Nat) a + S30x1.size a ≤ S30x1.size a
  h_S30x1 : 0 < S30x1.numel
  shapeCasts_S30x1_S30x1 : S30x1.ShapeCasts S30x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S30x9_S30x9_0_0 : ∀ a, (![0, 0] : Fin 2 → Nat) a + S30x9.size a ≤ S30x9.size a
  h_S30x9 : 0 < S30x9.numel
  shapeCasts_S30x9_S30x9 : S30x9.ShapeCasts S30x9
  slices_S2000x9_o0_0_S2000x4 : S2000x9.Slices ![0, 0] S2000x4
  slices_S2000x9_o0_4_S2000x1 : S2000x9.Slices ![0, 4] S2000x1
  slices_S2000x9_o0_5_S2000x4 : S2000x9.Slices ![0, 5] S2000x4
  shapeCasts_S1000000x4_S1000000x1x4 : S1000000x4.ShapeCasts S1000000x1x4
  shapeCasts_S1000000x1_S1000000x1x1 : S1000000x1.ShapeCasts S1000000x1x1
  dot_S2000x9_S9x30_S2000x30_1_0_0_1_n_n_wf : DotDims.WF S2000x9 S9x30 S2000x30 [1] [0] [0] [1] [] []
  dot_S2000x30_S30x30_S2000x30_1_0_0_1_n_n_wf : DotDims.WF S2000x30 S30x30 S2000x30 [1] [0] [0] [1] [] []
  dot_S2000x30_S30x1_S2000x1_1_0_0_1_n_n_wf : DotDims.WF S2000x30 S30x1 S2000x1 [1] [0] [0] [1] [] []
  dot_S2000x30_S30x9_S2000x9_1_0_0_1_n_n_wf : DotDims.WF S2000x30 S30x9 S2000x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S1000000x4.size a
  hwx0_0 : ∀ i : grid0.Coords, EltTy.bits .f32 = 32 ∨ (Rect.block (s := S1000000x4) S2000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S1000000x1.size a
  hwx0_1 : ∀ i : grid0.Coords, EltTy.bits .f32 = 32 ∨ (Rect.block (s := S1000000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x4.size a ≤ S1000000x4.size a
  hwx0_2 : ∀ i : grid0.Coords, EltTy.bits .f32 = 32 ∨ (Rect.block (s := S1000000x4) S2000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x30.size a ≤ S9x30.size a
  hwx0_3 : ∀ i : grid0.Coords, EltTy.bits .bf16 = 32 ∨ (Rect.block (s := S9x30) S9x30.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x30.size a ≤ S1x30.size a
  hwx0_4 : ∀ i : grid0.Coords, EltTy.bits .f32 = 32 ∨ (Rect.block (s := S1x30) S1x30.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S30x30.size a ≤ S30x30.size a
  hwx0_5 : ∀ i : grid0.Coords, EltTy.bits .bf16 = 32 ∨ (Rect.block (s := S30x30) S30x30.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x30.size a ≤ S1x30.size a
  hwx0_6 : ∀ i : grid0.Coords, EltTy.bits .f32 = 32 ∨ (Rect.block (s := S1x30) S1x30.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S30x30.size a ≤ S30x30.size a
  hwx0_7 : ∀ i : grid0.Coords, EltTy.bits .bf16 = 32 ∨ (Rect.block (s := S30x30) S30x30.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x30.size a ≤ S1x30.size a
  hwx0_8 : ∀ i : grid0.Coords, EltTy.bits .f32 = 32 ∨ (Rect.block (s := S1x30) S1x30.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S30x1.size a ≤ S30x1.size a
  hwx0_9 : ∀ i : grid0.Coords, EltTy.bits .bf16 = 32 ∨ (Rect.block (s := S30x1) S30x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S30x9.size a ≤ S30x9.size a
  hwx0_11 : ∀ i : grid0.Coords, EltTy.bits .bf16 = 32 ∨ (Rect.block (s := S30x9) S30x9.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S30x30.size a ≤ S30x30.size a
  hwx0_12 : ∀ i : grid0.Coords, EltTy.bits .bf16 = 32 ∨ (Rect.block (s := S30x30) S30x30.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S30x30.size a ≤ S30x30.size a
  hwx0_13 : ∀ i : grid0.Coords, EltTy.bits .bf16 = 32 ∨ (Rect.block (s := S30x30) S30x30.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x30.size a ≤ S1x30.size a
  hwx0_14 : ∀ i : grid0.Coords, EltTy.bits .f32 = 32 ∨ (Rect.block (s := S1x30) S1x30.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x1.size a ≤ S1000000x1.size a
  hwx0_15 : ∀ i : grid0.Coords, EltTy.bits .f32 = 32 ∨ (Rect.block (s := S1000000x1) S2000x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x4.size a ≤ S1000000x4.size a
  hwx0_16 : ∀ i : grid0.Coords, EltTy.bits .f32 = 32 ∨ (Rect.block (s := S1000000x4) S2000x4.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x1.size a ≤ S1000000x1.size a
  hwx0_17 : ∀ i : grid0.Coords, EltTy.bits .f32 = 32 ∨ (Rect.block (s := S1000000x1) S2000x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x4.size a ≤ S1000000x4.size a
  hwx0_18 : ∀ i : grid0.Coords, EltTy.bits .f32 = 32 ∨ (Rect.block (s := S1000000x4) S2000x4.size (cc0_transform_18 i) (hinb0_18 i)).WholeWords (EltTy.packing .f32)

variable [Facts₀]

def dot_S2000x9_S9x30_S2000x30_1_0_0_1_n_n : DotDims S2000x9 S9x30 S2000x30 where
  lhsContracting := [1]
  rhsContracting := [0]
  lhsNonContracting := [0]
  rhsNonContracting := [1]
  lhsBatch := []
  rhsBatch := []
  wf := dot_S2000x9_S9x30_S2000x30_1_0_0_1_n_n_wf
def dot_S2000x30_S30x30_S2000x30_1_0_0_1_n_n : DotDims S2000x30 S30x30 S2000x30 where
  lhsContracting := [1]
  rhsContracting := [0]
  lhsNonContracting := [0]
  rhsNonContracting := [1]
  lhsBatch := []
  rhsBatch := []
  wf := dot_S2000x30_S30x30_S2000x30_1_0_0_1_n_n_wf
def dot_S2000x30_S30x1_S2000x1_1_0_0_1_n_n : DotDims S2000x30 S30x1 S2000x1 where
  lhsContracting := [1]
  rhsContracting := [0]
  lhsNonContracting := [0]
  rhsNonContracting := [1]
  lhsBatch := []
  rhsBatch := []
  wf := dot_S2000x30_S30x1_S2000x1_1_0_0_1_n_n_wf
def dot_S2000x30_S30x9_S2000x9_1_0_0_1_n_n : DotDims S2000x30 S30x9 S2000x9 where
  lhsContracting := [1]
  rhsContracting := [0]
  lhsNonContracting := [0]
  rhsNonContracting := [1]
  lhsBatch := []
  rhsBatch := []
  wf := dot_S2000x30_S30x9_S2000x9_1_0_0_1_n_n_wf

abbrev win0_0 : Pipeline.Window sig grid0 :=
  Pipeline.Window.ofSpec (Memref.whole main_arg0) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S9x30.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x30.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S30x30.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x30.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S30x30.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x30.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S30x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S30x9.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S30x30.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S30x30.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x30.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16_0) S2000x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v16_1) S2000x4.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v16_2) S2000x1.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v16_3) S2000x4.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S1000000x4 : Shape := ⟨2, ![1000000, 4]⟩
abbrev S1000000x1 : Shape := ⟨2, ![1000000, 1]⟩
abbrev S9x30 : Shape := ⟨2, ![9, 30]⟩
abbrev S30 : Shape := ⟨1, ![30]⟩
abbrev S30x30 : Shape := ⟨2, ![30, 30]⟩
abbrev S30x1 : Shape := ⟨2, ![30, 1]⟩
abbrev S1 : Shape := ⟨1, ![1]⟩
abbrev S1000000x9 : Shape := ⟨2, ![1000000, 9]⟩
abbrev S1000000x30 : Shape := ⟨2, ![1000000, 30]⟩
abbrev S1x30 : Shape := ⟨2, ![1, 30]⟩
abbrev S_ : Shape := ⟨0, ![]⟩
abbrev S1x1 : Shape := ⟨2, ![1, 1]⟩
abbrev S30x9 : Shape := ⟨2, ![30, 9]⟩
abbrev S1000000x1x4 : Shape := ⟨3, ![1000000, 1, 4]⟩
abbrev S1000000x1x1 : Shape := ⟨3, ![1000000, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S1000000x4, .f32⟩
  | .hbm, ⟨1, _⟩ => ⟨S1000000x1, .f32⟩
  | .hbm, ⟨2, _⟩ => ⟨S1000000x4, .f32⟩
  | .hbm, ⟨3, _⟩ => ⟨S9x30, .f32⟩
  | .hbm, ⟨4, _⟩ => ⟨S30, .f32⟩
  | .hbm, ⟨5, _⟩ => ⟨S30x30, .f32⟩
  | .hbm, ⟨6, _⟩ => ⟨S30, .f32⟩
  | .hbm, ⟨7, _⟩ => ⟨S30x30, .f32⟩
  | .hbm, ⟨8, _⟩ => ⟨S30, .f32⟩
  | .hbm, ⟨9, _⟩ => ⟨S30x1, .f32⟩
  | .hbm, ⟨10, _⟩ => ⟨S1, .f32⟩
  | .hbm, ⟨11, _⟩ => ⟨S1000000x9, .f32⟩
  | .hbm, ⟨12, _⟩ => ⟨S1000000x30, .f32⟩
  | .hbm, ⟨13, _⟩ => ⟨S1x30, .f32⟩
  | .hbm, ⟨14, _⟩ => ⟨S1000000x30, .f32⟩
  | .hbm, ⟨15, _⟩ => ⟨S1000000x30, .f32⟩
  | .hbm, ⟨16, _⟩ => ⟨S_, .f32⟩
  | .hbm, ⟨17, _⟩ => ⟨S1000000x30, .f32⟩
  | .hbm, ⟨18, _⟩ => ⟨S1000000x30, .i1⟩
  | .hbm, ⟨19, _⟩ => ⟨S_, .f32⟩
  | .hbm, ⟨20, _⟩ => ⟨S1000000x30, .f32⟩
  | .hbm, ⟨21, _⟩ => ⟨S1000000x30, .f32⟩
  | .hbm, ⟨22, _⟩ => ⟨S1000000x30, .f32⟩
  | .hbm, ⟨23, _⟩ => ⟨S1000000x30, .f32⟩
  | .hbm, ⟨24, _⟩ => ⟨S1x30, .f32⟩
  | .hbm, ⟨25, _⟩ => ⟨S1000000x30, .f32⟩
  | .hbm, ⟨26, _⟩ => ⟨S1000000x30, .f32⟩
  | .hbm, ⟨27, _⟩ => ⟨S_, .f32⟩
  | .hbm, ⟨28, _⟩ => ⟨S1000000x30, .f32⟩
  | .hbm, ⟨29, _⟩ => ⟨S1000000x30, .i1⟩
  | .hbm, ⟨30, _⟩ => ⟨S_, .f32⟩
  | .hbm, ⟨31, _⟩ => ⟨S1000000x30, .f32⟩
  | .hbm, ⟨32, _⟩ => ⟨S1000000x30, .f32⟩
  | .hbm, ⟨33, _⟩ => ⟨S1000000x30, .f32⟩
  | .hbm, ⟨34, _⟩ => ⟨S1000000x30, .f32⟩
  | .hbm, ⟨35, _⟩ => ⟨S1x30, .f32⟩
  | .hbm, ⟨36, _⟩ => ⟨S1000000x30, .f32⟩
  | .hbm, ⟨37, _⟩ => ⟨S1000000x30, .f32⟩
  | .hbm, ⟨38, _⟩ => ⟨S_, .f32⟩
  | .hbm, ⟨39, _⟩ => ⟨S1000000x30, .f32⟩
  | .hbm, ⟨40, _⟩ => ⟨S1000000x30, .i1⟩
  | .hbm, ⟨41, _⟩ => ⟨S_, .f32⟩
  | .hbm, ⟨42, _⟩ => ⟨S1000000x30, .f32⟩
  | .hbm, ⟨43, _⟩ => ⟨S1000000x30, .f32⟩
  | .hbm, ⟨44, _⟩ => ⟨S1000000x30, .f32⟩
  | .hbm, ⟨45, _⟩ => ⟨S1000000x1, .f32⟩
  | .hbm, ⟨46, _⟩ => ⟨S1x1, .f32⟩
  | .hbm, ⟨47, _⟩ => ⟨S1000000x1, .f32⟩
  | .hbm, ⟨48, _⟩ => ⟨S1000000x1, .f32⟩
  | .hbm, ⟨49, _⟩ => ⟨S30, .f32⟩
  | .hbm, ⟨50, _⟩ => ⟨S1x30, .f32⟩
  | .hbm, ⟨51, _⟩ => ⟨S_, .f32⟩
  | .hbm, ⟨52, _⟩ => ⟨S1000000x30, .f32⟩
  | .hbm, ⟨53, _⟩ => ⟨S1000000x30, .i1⟩
  | .hbm, ⟨54, _⟩ => ⟨S_, .f32⟩
  | .hbm, ⟨55, _⟩ => ⟨S_, .f32⟩
  | .hbm, ⟨56, _⟩ => ⟨S1000000x30, .f32⟩
  | .hbm, ⟨57, _⟩ => ⟨S1000000x30, .f32⟩
  | .hbm, ⟨58, _⟩ => ⟨S1000000x30, .f32⟩
  | .hbm, ⟨59, _⟩ => ⟨S1000000x30, .f32⟩
  | .hbm, ⟨60, _⟩ => ⟨S1000000x30, .f32⟩
  | .hbm, ⟨61, _⟩ => ⟨S1000000x30, .f32⟩
  | .hbm, ⟨62, _⟩ => ⟨S30x30, .f32⟩
  | .hbm, ⟨63, _⟩ => ⟨S1000000x30, .f32⟩
  | .hbm, ⟨64, _⟩ => ⟨S_, .f32⟩
  | .hbm, ⟨65, _⟩ => ⟨S1000000x30, .f32⟩
  | .hbm, ⟨66, _⟩ => ⟨S1000000x30, .i1⟩
  | .hbm, ⟨67, _⟩ => ⟨S_, .f32⟩
  | .hbm, ⟨68, _⟩ => ⟨S_, .f32⟩
  | .hbm, ⟨69, _⟩ => ⟨S1000000x30, .f32⟩
  | .hbm, ⟨70, _⟩ => ⟨S1000000x30, .f32⟩
  | .hbm, ⟨71, _⟩ => ⟨S1000000x30, .f32⟩
  | .hbm, ⟨72, _⟩ => ⟨S1000000x30, .f32⟩
  | .hbm, ⟨73, _⟩ => ⟨S1000000x30, .f32⟩
  | .hbm, ⟨74, _⟩ => ⟨S30x30, .f32⟩
  | .hbm, ⟨75, _⟩ => ⟨S1000000x30, .f32⟩
  | .hbm, ⟨76, _⟩ => ⟨S_, .f32⟩
  | .hbm, ⟨77, _⟩ => ⟨S1000000x30, .f32⟩
  | .hbm, ⟨78, _⟩ => ⟨S1000000x30, .i1⟩
  | .hbm, ⟨79, _⟩ => ⟨S_, .f32⟩
  | .hbm, ⟨80, _⟩ => ⟨S_, .f32⟩
  | .hbm, ⟨81, _⟩ => ⟨S1000000x30, .f32⟩
  | .hbm, ⟨82, _⟩ => ⟨S1000000x30, .f32⟩
  | .hbm, ⟨83, _⟩ => ⟨S1000000x30, .f32⟩
  | .hbm, ⟨84, _⟩ => ⟨S1000000x30, .f32⟩
  | .hbm, ⟨85, _⟩ => ⟨S1000000x30, .f32⟩
  | .hbm, ⟨86, _⟩ => ⟨S30x9, .f32⟩
  | .hbm, ⟨87, _⟩ => ⟨S1000000x9, .f32⟩
  | .hbm, ⟨88, _⟩ => ⟨S1000000x4, .f32⟩
  | .hbm, ⟨89, _⟩ => ⟨S1000000x1x4, .f32⟩
  | .hbm, ⟨90, _⟩ => ⟨S1000000x1, .f32⟩
  | .hbm, ⟨91, _⟩ => ⟨S1000000x1x1, .f32⟩
  | .hbm, ⟨92, _⟩ => ⟨S1000000x4, .f32⟩
  | .hbm, ⟨93, _⟩ => ⟨S1000000x1x4, .f32⟩
  | _, _ => ⟨S1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_cst_7 : Ref sig .tc := ⟨.hbm, 55, rfl⟩
abbrev main_call3_v0 : Ref sig .tc := ⟨.hbm, 56, rfl⟩
abbrev main_call3_v1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_cst_10 : Ref sig .tc := ⟨.hbm, 68, rfl⟩
abbrev main_call4_v0 : Ref sig .tc := ⟨.hbm, 69, rfl⟩
abbrev main_call4_v1 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_cst_13 : Ref sig .tc := ⟨.hbm, 80, rfl⟩
abbrev main_call5_v0 : Ref sig .tc := ⟨.hbm, 81, rfl⟩
abbrev main_call5_v1 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]

class Facts₀ : Prop where
  concatenates_S1000000x4_S1000000x1_S1000000x4_S1000000x9_d1 : Shape.Concatenates [S1000000x4, S1000000x1, S1000000x4] S1000000x9 1
  bcast_S30_S1x30_1 : S30.BroadcastsInDim S1x30 (![1] : Fin 1 → Fin S1x30.rank)
  bcast_S1x30_S1000000x30_0_1 : S1x30.BroadcastsInDim S1000000x30 (![0, 1] : Fin 2 → Fin S1000000x30.rank)
  bcast_S_S1000000x30 : S_.BroadcastsInDim S1000000x30 (![] : Fin 0 → Fin S1000000x30.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S30x1_S30 : S30x1.ShapeCasts S30
  transposes_S30x30_S30x30_1_0 : S30x30.Transposes [1, 0] S30x30
  transposes_S9x30_S30x9_1_0 : S9x30.Transposes [1, 0] S30x9
  slices_S1000000x9_S1000000x4_0_0 : S1000000x9.Slices ![0, 0] S1000000x4
  shapeCasts_S1000000x4_S1000000x1x4 : S1000000x4.ShapeCasts S1000000x1x4
  slices_S1000000x9_S1000000x1_0_4 : S1000000x9.Slices ![0, 4] S1000000x1
  shapeCasts_S1000000x1_S1000000x1x1 : S1000000x1.ShapeCasts S1000000x1x1
  slices_S1000000x9_S1000000x4_0_5 : S1000000x9.Slices ![0, 5] S1000000x4
  dot_S1000000x9_S9x30_S1000000x30_1_0_0_1_n_n_wf : DotDims.WF S1000000x9 S9x30 S1000000x30 [1] [0] [0] [1] [] []
  dot_S1000000x30_S30x30_S1000000x30_1_0_0_1_n_n_wf : DotDims.WF S1000000x30 S30x30 S1000000x30 [1] [0] [0] [1] [] []
  dot_S1000000x30_S30x1_S1000000x1_1_0_0_1_n_n_wf : DotDims.WF S1000000x30 S30x1 S1000000x1 [1] [0] [0] [1] [] []
  dot_S1000000x30_S30x9_S1000000x9_1_0_0_1_n_n_wf : DotDims.WF S1000000x30 S30x9 S1000000x9 [1] [0] [0] [1] [] []

variable [Facts₀]

def dot_S1000000x9_S9x30_S1000000x30_1_0_0_1_n_n : DotDims S1000000x9 S9x30 S1000000x30 where
  lhsContracting := [1]
  rhsContracting := [0]
  lhsNonContracting := [0]
  rhsNonContracting := [1]
  lhsBatch := []
  rhsBatch := []
  wf := dot_S1000000x9_S9x30_S1000000x30_1_0_0_1_n_n_wf
def dot_S1000000x30_S30x30_S1000000x30_1_0_0_1_n_n : DotDims S1000000x30 S30x30 S1000000x30 where
  lhsContracting := [1]
  rhsContracting := [0]
  lhsNonContracting := [0]
  rhsNonContracting := [1]
  lhsBatch := []
  rhsBatch := []
  wf := dot_S1000000x30_S30x30_S1000000x30_1_0_0_1_n_n_wf
def dot_S1000000x30_S30x1_S1000000x1_1_0_0_1_n_n : DotDims S1000000x30 S30x1 S1000000x1 where
  lhsContracting := [1]
  rhsContracting := [0]
  lhsNonContracting := [0]
  rhsNonContracting := [1]
  lhsBatch := []
  rhsBatch := []
  wf := dot_S1000000x30_S30x1_S1000000x1_1_0_0_1_n_n_wf
def dot_S1000000x30_S30x9_S1000000x9_1_0_0_1_n_n : DotDims S1000000x30 S30x9 S1000000x9 where
  lhsContracting := [1]
  rhsContracting := [0]
  lhsNonContracting := [0]
  rhsNonContracting := [1]
  lhsBatch := []
  rhsBatch := []
  wf := dot_S1000000x30_S30x9_S1000000x9_1_0_0_1_n_n_wf

class Facts : Prop extends Facts₀ where

variable [Facts]
-- ==== Proof.OutBlocks.lean ====
/- From grid points to whole arrays. The call runs over 500 grid points; point t writes rows 2000 t … 2000 t + 1999
   of each of its four result arrays (1000000 rows by 1, 4, 1 and 4 columns). If what point t leaves for a result
   agrees row by row with a function G of the whole array's index, the array after the run is G: each index lies in
   the tile of the point (row / 2000), and every point writes its tile back. After the call three of the results are
   read at rank-3 shapes; the run is restated with each result named and each argument as launched. -/
import proofs.«133073_j23579370455607_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.OutBlocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The grid has 500 points. -/
theorem points : cfg0.N = 500 := N_0

/-- Row `r` of the tile of grid point `t` is row `2000 t + r` of the array. -/
abbrev rowOf (t : Fin cfg0.N) (r : Fin 2000) : Fin 1000000 :=
  ⟨2000 * t.val + r.val, by have ht : t.val < 500 := Nat.lt_of_lt_of_eq t.isLt points; have hr := r.isLt; omega⟩

/-! ## Output window 15: row tiles of 2000 rows by 1 -/

/-- The printed index map, decided over the grid: point `t` writes row tile `t`, column tile 0. -/
theorem tileIndex15 : ∀ t : Fin cfg0.N, win0_15.index t (0 : Fin 2) = t.val ∧ win0_15.index t (1 : Fin 2) = 0 :=
  (by decide +kernel : ∀ t : Fin grid0.N, _)

/-- What point `t` writes back is tile `t` of `G`, when the buffer the body leaves agrees with `G` row by row. -/
theorem flushed15_eq (c : Dev nD) (G : S1000000x1.Idx → EReal)
    (hG : ∀ (t : Fin cfg0.N) (r : Fin 2000) (a : Fin 1), (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x1.Idx → EReal) (ix2 r a) = G (ix2 (rowOf t r) a))
    (t : Fin cfg0.N) :
    (dats m 0 c).flushed 15 t = ((cfg0.win 15).blk t).view.read (Elt Ideal) G := by
  show (cfg0.win 15).cut (grid0.coords t) ((dats m 0 c).after 15 t) = _
  rw [after0_15]
  obtain ⟨e0, e1⟩ := tileIndex15 t
  funext j
  show (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x1.Idx → EReal) j = G (((cfg0.win 15).blk t).view.emb j)
  have hj : (j : S2000x1.Idx) = ix2 (j 0) (j 1) := eq_ix2 (n0 := 2000) (n1 := 1) j
  refine (congrArg (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x1.Idx → EReal) hj).trans ((hG t (j 0) (j 1)).trans (congrArg G ?_))
  funext a
  apply Fin.ext
  match a with
  | ⟨0, _⟩ => show 2000 * t.val + (j 0).val = win0_15.index t (0 : Fin 2) * 2000 + 1 * (j 0).val; omega
  | ⟨1, _⟩ => show (j 1).val = win0_15.index t (1 : Fin 2) * 1 + 1 * (j 1).val; omega

/-- An index of the array lies in point `t`'s tile iff each coordinate lies in the tile's range on its axis. -/
theorem mem_tile15 (t : Fin cfg0.N) (i : S1000000x1.Idx) :
    i ∈ ((cfg0.win 15).blk t).view.set ↔ ∀ a : Fin 2, win0_15.index t a * S2000x1.size a ≤ (i a).val ∧ (i a).val < win0_15.index t a * S2000x1.size a + S2000x1.size a := by
  show i ∈ ((View.whole main_v16_0).slice (win0_15.rect t)).set ↔ _
  rw [View.set_slice_whole, Rect.mem_set_unit]
  exact Iff.rfl

/-- The tiles cover the array: row `i` lies in the tile of point `i / 2000`, and every point writes back. -/
theorem cover15 (i : S1000000x1.Idx) :
    ∃ t : Fin cfg0.N, (cfg0.win 15).flush t = true ∧ i ∈ ((cfg0.win 15).blk t).view.set := by
  have hi0 : (i 0).val < 1000000 := (i 0).isLt
  have hi1 : (i 1).val < 1 := (i 1).isLt
  have hq : (i 0).val / 2000 < cfg0.N := by rw [points]; omega
  obtain ⟨e0, e1⟩ := tileIndex15 ⟨(i 0).val / 2000, hq⟩
  refine ⟨⟨(i 0).val / 2000, hq⟩, flush0_15 _, ?_⟩
  rw [mem_tile15]
  intro a
  match a with
  | ⟨0, _⟩ =>
    show win0_15.index ⟨(i 0).val / 2000, hq⟩ (0 : Fin 2) * 2000 ≤ (i 0).val ∧ (i 0).val < win0_15.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win0_15.index ⟨(i 0).val / 2000, hq⟩ (1 : Fin 2) * 1 ≤ (i 1).val ∧ (i 1).val < win0_15.index ⟨(i 0).val / 2000, hq⟩ (1 : Fin 2) * 1 + 1
    rw [e1]; omega

/-- The array after the run is `G`, when what every point leaves in the window's buffer agrees with `G` row by row. -/
theorem final15 (c : Dev nD) (G : S1000000x1.Idx → EReal)
    (hG : ∀ (t : Fin cfg0.N) (r : Fin 2000) (a : Fin 1), (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x1.Idx → EReal) (ix2 r a) = G (ix2 (rowOf t r) a)) :
    (dats m 0 c).arrAt 15 cfg0.N = G :=
  (dats m 0 c).arrAt_eq_of_cover 15 G (fun t _ => flushed15_eq m c G hG t) cover15

/-! ## Output window 16: row tiles of 2000 rows by 4 -/

/-- The printed index map, decided over the grid: point `t` writes row tile `t`, column tile 0. -/
theorem tileIndex16 : ∀ t : Fin cfg0.N, win0_16.index t (0 : Fin 2) = t.val ∧ win0_16.index t (1 : Fin 2) = 0 :=
  (by decide +kernel : ∀ t : Fin grid0.N, _)

/-- What point `t` writes back is tile `t` of `G`, when the buffer the body leaves agrees with `G` row by row. -/
theorem flushed16_eq (c : Dev nD) (G : S1000000x4.Idx → EReal)
    (hG : ∀ (t : Fin cfg0.N) (r : Fin 2000) (a : Fin 4), (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x4.Idx → EReal) (ix2 r a) = G (ix2 (rowOf t r) a))
    (t : Fin cfg0.N) :
    (dats m 0 c).flushed 16 t = ((cfg0.win 16).blk t).view.read (Elt Ideal) G := by
  show (cfg0.win 16).cut (grid0.coords t) ((dats m 0 c).after 16 t) = _
  rw [after0_16]
  obtain ⟨e0, e1⟩ := tileIndex16 t
  funext j
  show (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x4.Idx → EReal) j = G (((cfg0.win 16).blk t).view.emb j)
  have hj : (j : S2000x4.Idx) = ix2 (j 0) (j 1) := eq_ix2 (n0 := 2000) (n1 := 4) j
  refine (congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x4.Idx → EReal) hj).trans ((hG t (j 0) (j 1)).trans (congrArg G ?_))
  funext a
  apply Fin.ext
  match a with
  | ⟨0, _⟩ => show 2000 * t.val + (j 0).val = win0_16.index t (0 : Fin 2) * 2000 + 1 * (j 0).val; omega
  | ⟨1, _⟩ => show (j 1).val = win0_16.index t (1 : Fin 2) * 4 + 1 * (j 1).val; omega

/-- An index of the array lies in point `t`'s tile iff each coordinate lies in the tile's range on its axis. -/
theorem mem_tile16 (t : Fin cfg0.N) (i : S1000000x4.Idx) :
    i ∈ ((cfg0.win 16).blk t).view.set ↔ ∀ a : Fin 2, win0_16.index t a * S2000x4.size a ≤ (i a).val ∧ (i a).val < win0_16.index t a * S2000x4.size a + S2000x4.size a := by
  show i ∈ ((View.whole main_v16_1).slice (win0_16.rect t)).set ↔ _
  rw [View.set_slice_whole, Rect.mem_set_unit]
  exact Iff.rfl

/-- The tiles cover the array: row `i` lies in the tile of point `i / 2000`, and every point writes back. -/
theorem cover16 (i : S1000000x4.Idx) :
    ∃ t : Fin cfg0.N, (cfg0.win 16).flush t = true ∧ i ∈ ((cfg0.win 16).blk t).view.set := by
  have hi0 : (i 0).val < 1000000 := (i 0).isLt
  have hi1 : (i 1).val < 4 := (i 1).isLt
  have hq : (i 0).val / 2000 < cfg0.N := by rw [points]; omega
  obtain ⟨e0, e1⟩ := tileIndex16 ⟨(i 0).val / 2000, hq⟩
  refine ⟨⟨(i 0).val / 2000, hq⟩, flush0_16 _, ?_⟩
  rw [mem_tile16]
  intro a
  match a with
  | ⟨0, _⟩ =>
    show win0_16.index ⟨(i 0).val / 2000, hq⟩ (0 : Fin 2) * 2000 ≤ (i 0).val ∧ (i 0).val < win0_16.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win0_16.index ⟨(i 0).val / 2000, hq⟩ (1 : Fin 2) * 4 ≤ (i 1).val ∧ (i 1).val < win0_16.index ⟨(i 0).val / 2000, hq⟩ (1 : Fin 2) * 4 + 4
    rw [e1]; omega

/-- The array after the run is `G`, when what every point leaves in the window's buffer agrees with `G` row by row. -/
theorem final16 (c : Dev nD) (G : S1000000x4.Idx → EReal)
    (hG : ∀ (t : Fin cfg0.N) (r : Fin 2000) (a : Fin 4), (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x4.Idx → EReal) (ix2 r a) = G (ix2 (rowOf t r) a)) :
    (dats m 0 c).arrAt 16 cfg0.N = G :=
  (dats m 0 c).arrAt_eq_of_cover 16 G (fun t _ => flushed16_eq m c G hG t) cover16

/-! ## Output window 17: row tiles of 2000 rows by 1 -/

/-- The printed index map, decided over the grid: point `t` writes row tile `t`, column tile 0. -/
theorem tileIndex17 : ∀ t : Fin cfg0.N, win0_17.index t (0 : Fin 2) = t.val ∧ win0_17.index t (1 : Fin 2) = 0 :=
  (by decide +kernel : ∀ t : Fin grid0.N, _)

/-- What point `t` writes back is tile `t` of `G`, when the buffer the body leaves agrees with `G` row by row. -/
theorem flushed17_eq (c : Dev nD) (G : S1000000x1.Idx → EReal)
    (hG : ∀ (t : Fin cfg0.N) (r : Fin 2000) (a : Fin 1), (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x1.Idx → EReal) (ix2 r a) = G (ix2 (rowOf t r) a))
    (t : Fin cfg0.N) :
    (dats m 0 c).flushed 17 t = ((cfg0.win 17).blk t).view.read (Elt Ideal) G := by
  show (cfg0.win 17).cut (grid0.coords t) ((dats m 0 c).after 17 t) = _
  rw [after0_17]
  obtain ⟨e0, e1⟩ := tileIndex17 t
  funext j
  show (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x1.Idx → EReal) j = G (((cfg0.win 17).blk t).view.emb j)
  have hj : (j : S2000x1.Idx) = ix2 (j 0) (j 1) := eq_ix2 (n0 := 2000) (n1 := 1) j
  refine (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x1.Idx → EReal) hj).trans ((hG t (j 0) (j 1)).trans (congrArg G ?_))
  funext a
  apply Fin.ext
  match a with
  | ⟨0, _⟩ => show 2000 * t.val + (j 0).val = win0_17.index t (0 : Fin 2) * 2000 + 1 * (j 0).val; omega
  | ⟨1, _⟩ => show (j 1).val = win0_17.index t (1 : Fin 2) * 1 + 1 * (j 1).val; omega

/-- An index of the array lies in point `t`'s tile iff each coordinate lies in the tile's range on its axis. -/
theorem mem_tile17 (t : Fin cfg0.N) (i : S1000000x1.Idx) :
    i ∈ ((cfg0.win 17).blk t).view.set ↔ ∀ a : Fin 2, win0_17.index t a * S2000x1.size a ≤ (i a).val ∧ (i a).val < win0_17.index t a * S2000x1.size a + S2000x1.size a := by
  show i ∈ ((View.whole main_v16_2).slice (win0_17.rect t)).set ↔ _
  rw [View.set_slice_whole, Rect.mem_set_unit]
  exact Iff.rfl

/-- The tiles cover the array: row `i` lies in the tile of point `i / 2000`, and every point writes back. -/
theorem cover17 (i : S1000000x1.Idx) :
    ∃ t : Fin cfg0.N, (cfg0.win 17).flush t = true ∧ i ∈ ((cfg0.win 17).blk t).view.set := by
  have hi0 : (i 0).val < 1000000 := (i 0).isLt
  have hi1 : (i 1).val < 1 := (i 1).isLt
  have hq : (i 0).val / 2000 < cfg0.N := by rw [points]; omega
  obtain ⟨e0, e1⟩ := tileIndex17 ⟨(i 0).val / 2000, hq⟩
  refine ⟨⟨(i 0).val / 2000, hq⟩, flush0_17 _, ?_⟩
  rw [mem_tile17]
  intro a
  match a with
  | ⟨0, _⟩ =>
    show win0_17.index ⟨(i 0).val / 2000, hq⟩ (0 : Fin 2) * 2000 ≤ (i 0).val ∧ (i 0).val < win0_17.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win0_17.index ⟨(i 0).val / 2000, hq⟩ (1 : Fin 2) * 1 ≤ (i 1).val ∧ (i 1).val < win0_17.index ⟨(i 0).val / 2000, hq⟩ (1 : Fin 2) * 1 + 1
    rw [e1]; omega

/-- The array after the run is `G`, when what every point leaves in the window's buffer agrees with `G` row by row. -/
theorem final17 (c : Dev nD) (G : S1000000x1.Idx → EReal)
    (hG : ∀ (t : Fin cfg0.N) (r : Fin 2000) (a : Fin 1), (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x1.Idx → EReal) (ix2 r a) = G (ix2 (rowOf t r) a)) :
    (dats m 0 c).arrAt 17 cfg0.N = G :=
  (dats m 0 c).arrAt_eq_of_cover 17 G (fun t _ => flushed17_eq m c G hG t) cover17

/-! ## Output window 18: row tiles of 2000 rows by 4 -/

/-- The printed index map, decided over the grid: point `t` writes row tile `t`, column tile 0. -/
theorem tileIndex18 : ∀ t : Fin cfg0.N, win0_18.index t (0 : Fin 2) = t.val ∧ win0_18.index t (1 : Fin 2) = 0 :=
  (by decide +kernel : ∀ t : Fin grid0.N, _)

/-- What point `t` writes back is tile `t` of `G`, when the buffer the body leaves agrees with `G` row by row. -/
theorem flushed18_eq (c : Dev nD) (G : S1000000x4.Idx → EReal)
    (hG : ∀ (t : Fin cfg0.N) (r : Fin 2000) (a : Fin 4), (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x4.Idx → EReal) (ix2 r a) = G (ix2 (rowOf t r) a))
    (t : Fin cfg0.N) :
    (dats m 0 c).flushed 18 t = ((cfg0.win 18).blk t).view.read (Elt Ideal) G := by
  show (cfg0.win 18).cut (grid0.coords t) ((dats m 0 c).after 18 t) = _
  rw [after0_18]
  obtain ⟨e0, e1⟩ := tileIndex18 t
  funext j
  show (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x4.Idx → EReal) j = G (((cfg0.win 18).blk t).view.emb j)
  have hj : (j : S2000x4.Idx) = ix2 (j 0) (j 1) := eq_ix2 (n0 := 2000) (n1 := 4) j
  refine (congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x4.Idx → EReal) hj).trans ((hG t (j 0) (j 1)).trans (congrArg G ?_))
  funext a
  apply Fin.ext
  match a with
  | ⟨0, _⟩ => show 2000 * t.val + (j 0).val = win0_18.index t (0 : Fin 2) * 2000 + 1 * (j 0).val; omega
  | ⟨1, _⟩ => show (j 1).val = win0_18.index t (1 : Fin 2) * 4 + 1 * (j 1).val; omega

/-- An index of the array lies in point `t`'s tile iff each coordinate lies in the tile's range on its axis. -/
theorem mem_tile18 (t : Fin cfg0.N) (i : S1000000x4.Idx) :
    i ∈ ((cfg0.win 18).blk t).view.set ↔ ∀ a : Fin 2, win0_18.index t a * S2000x4.size a ≤ (i a).val ∧ (i a).val < win0_18.index t a * S2000x4.size a + S2000x4.size a := by
  show i ∈ ((View.whole main_v16_3).slice (win0_18.rect t)).set ↔ _
  rw [View.set_slice_whole, Rect.mem_set_unit]
  exact Iff.rfl

/-- The tiles cover the array: row `i` lies in the tile of point `i / 2000`, and every point writes back. -/
theorem cover18 (i : S1000000x4.Idx) :
    ∃ t : Fin cfg0.N, (cfg0.win 18).flush t = true ∧ i ∈ ((cfg0.win 18).blk t).view.set := by
  have hi0 : (i 0).val < 1000000 := (i 0).isLt
  have hi1 : (i 1).val < 4 := (i 1).isLt
  have hq : (i 0).val / 2000 < cfg0.N := by rw [points]; omega
  obtain ⟨e0, e1⟩ := tileIndex18 ⟨(i 0).val / 2000, hq⟩
  refine ⟨⟨(i 0).val / 2000, hq⟩, flush0_18 _, ?_⟩
  rw [mem_tile18]
  intro a
  match a with
  | ⟨0, _⟩ =>
    show win0_18.index ⟨(i 0).val / 2000, hq⟩ (0 : Fin 2) * 2000 ≤ (i 0).val ∧ (i 0).val < win0_18.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win0_18.index ⟨(i 0).val / 2000, hq⟩ (1 : Fin 2) * 4 ≤ (i 1).val ∧ (i 1).val < win0_18.index ⟨(i 0).val / 2000, hq⟩ (1 : Fin 2) * 4 + 4
    rw [e1]; omega

/-- The array after the run is `G`, when what every point leaves in the window's buffer agrees with `G` row by row. -/
theorem final18 (c : Dev nD) (G : S1000000x4.Idx → EReal)
    (hG : ∀ (t : Fin cfg0.N) (r : Fin 2000) (a : Fin 4), (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) : S2000x4.Idx → EReal) (ix2 r a) = G (ix2 (rowOf t r) a)) :
    (dats m 0 c).arrAt 18 cfg0.N = G :=
  (dats m 0 c).arrAt_eq_of_cover 18 G (fun t _ => flushed18_eq m c G hG t) cover18

/-! ## The reshapes after the region -/

/-- After the region `main_v19` is the second output array read at shape [1000000, 1, 4]. -/
theorem tail_v19 (c : Dev nD) :
    Pipeline.afterTail₀ cfgs (dats m) 0 (V0 m) [hostOps1] c main_v19
      = shapeCast S1000000x1x4 ((dats m 0 c).arrAt 16 cfg0.N) shapeCasts_S1000000x4_S1000000x1x4 := by
  unfold Pipeline.afterTail₀
  show StableHlo.after hostOps1 _ (Proc.devRef .tc main_v19) = _
  after_results
  exact congrArg (fun x => shapeCast S1000000x1x4 x shapeCasts_S1000000x4_S1000000x1x4)
    (Pipeline.withArrays_arr spec0 launch0.win.arr_inj c _ _ 16)

/-- After the region `main_v18` is the third output array read at shape [1000000, 1, 1]. -/
theorem tail_v18 (c : Dev nD) :
    Pipeline.afterTail₀ cfgs (dats m) 0 (V0 m) [hostOps1] c main_v18
      = shapeCast S1000000x1x1 ((dats m 0 c).arrAt 17 cfg0.N) shapeCasts_S1000000x1_S1000000x1x1 := by
  unfold Pipeline.afterTail₀
  show StableHlo.after hostOps1 _ (Proc.devRef .tc main_v18) = _
  after_results
  exact congrArg (fun x => shapeCast S1000000x1x1 x shapeCasts_S1000000x1_S1000000x1x1)
    (Pipeline.withArrays_arr spec0 launch0.win.arr_inj c _ _ 17)

/-- After the region `main_v17` is the fourth output array read at shape [1000000, 1, 4]. -/
theorem tail_v17 (c : Dev nD) :
    Pipeline.afterTail₀ cfgs (dats m) 0 (V0 m) [hostOps1] c main_v17
      = shapeCast S1000000x1x4 ((dats m 0 c).arrAt 18 cfg0.N) shapeCasts_S1000000x4_S1000000x1x4 := by
  unfold Pipeline.afterTail₀
  show StableHlo.after hostOps1 _ (Proc.devRef .tc main_v17) = _
  after_results
  exact congrArg (fun x => shapeCast S1000000x1x4 x shapeCasts_S1000000x4_S1000000x1x4)
    (Pipeline.withArrays_arr spec0 launch0.win.arr_inj c _ _ 18)

/-! ## The run, with every result named -/

/-- Every fair run of the program ends with the first result at the first output array, the other three results at
    the other output arrays read at their rank-3 shapes, and every argument as launched. -/
theorem run_named : θ_run defs (onTc (τ := τ) (main (F := Ideal))) ⟨m, fun _ => 0, ρ⟩ fun r => ∀ c : Dev nD,
      r.2.mem ((c.tc : Thread nD τ).loc main_v16_0) = (dats m 0 c).arrAt 15 cfg0.N
      ∧ r.2.mem ((c.tc : Thread nD τ).loc main_v19) = shapeCast S1000000x1x4 ((dats m 0 c).arrAt 16 cfg0.N) shapeCasts_S1000000x4_S1000000x1x4
      ∧ r.2.mem ((c.tc : Thread nD τ).loc main_v18) = shapeCast S1000000x1x1 ((dats m 0 c).arrAt 17 cfg0.N) shapeCasts_S1000000x1_S1000000x1x1
      ∧ r.2.mem ((c.tc : Thread nD τ).loc main_v17) = shapeCast S1000000x1x4 ((dats m 0 c).arrAt 18 cfg0.N) shapeCasts_S1000000x4_S1000000x1x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1 15,
      ((h c).2 main_v19 (Pipeline.mem_restRefs_of main_v19 (by decide) (by decide))).trans (tail_v19 m c),
      ((h c).2 main_v18 (Pipeline.mem_restRefs_of main_v18 (by decide) (by decide))).trans (tail_v18 m c),
      ((h c).2 main_v17 (Pipeline.mem_restRefs_of main_v17 (by decide) (by decide))).trans (tail_v17 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.OutBlocks

end
-- ==== Proof.InBlocks.lean ====
import proofs.«133073_j23579370455607_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

/-! # The input windows' blocks in terms of @main's arguments

What each input window's block at a grid point holds, read off the arrays as the region finds them: the three row
tiles are rows of the first three arguments; the other twelve windows take whole arrays that host operations computed
from the weight and bias arguments (a conversion, a transpose, a reshape). -/

noncomputable section

namespace Cert.KernelIdeal.InBlocks

open Cert.KernelIdeal Cert.KernelIdeal.Gen Idealize.ShloMosaic Idealize.ShloMosaic.TcCoe Idealize.ShloMosaic.ValueIdx

variable (m : (ℓ : Loc nD τ sig) → Buf (Elt Ideal) ℓ)

/-- Row `r` of the row tile at grid point `t`, as a row of the whole array: tiles are 2000 rows tall. -/
abbrev rowOf (t : Fin cfg0.N) (r : Fin 2000) : Fin 1000000 :=
  ⟨2000 * t.val + r.val, by have := t.isLt; have := r.isLt; have : cfg0.N = 500 := N_0; omega⟩

/-! ## The row tiles: windows 0, 1, 2

The block index of a row tile at grid point `t` is `(t, 0)`, so its row `r` is row `2000 * t + r` of the array, and no
host operation before the region writes the three arrays. -/

/-- Window 0's block index at grid point `t` is `(t, 0)`. -/
theorem idx0 : ∀ t : Fin cfg0.N, win0_0.index t (0 : Fin 2) = t.val ∧ win0_0.index t (1 : Fin 2) = 0 :=
  (by decide +kernel : ∀ t : Fin grid0.N, _)

/-- Window 0's block at grid point `t` is rows `2000 * t` to `2000 * t + 1999` of the array. -/
theorem blk0 (c : Dev nD) (t : Fin cfg0.N) (r : Fin 2000) (a : Fin 4) :
    (iblk m c 0 t : S2000x4.Idx → EReal) (ix2 r a)
      = (m ((c : Thread nD τ).loc main_arg0) : S1000000x4.Idx → EReal) (ix2 (rowOf t r) a) := by
  show (V m c main_arg0 : S1000000x4.Idx → EReal) (((cfg0.win 0).blk t).view.emb (ix2 r a)) = _
  rw [V_main_arg0]
  obtain ⟨e0, e1⟩ := idx0 t
  refine congrArg (m ((c : Thread nD τ).loc main_arg0) : S1000000x4.Idx → EReal) ?_
  funext d; apply Fin.ext
  match d with
  | ⟨0, _⟩ => show win0_0.index t (0 : Fin 2) * 2000 + 1 * r.val = 2000 * t.val + r.val; omega
  | ⟨1, _⟩ => show win0_0.index t (1 : Fin 2) * 4 + 1 * a.val = a.val; omega

/-- Window 1's block index at grid point `t` is `(t, 0)`. -/
theorem idx1 : ∀ t : Fin cfg0.N, win0_1.index t (0 : Fin 2) = t.val ∧ win0_1.index t (1 : Fin 2) = 0 :=
  (by decide +kernel : ∀ t : Fin grid0.N, _)

/-- Window 1's block at grid point `t` is rows `2000 * t` to `2000 * t + 1999` of the array. -/
theorem blk1 (c : Dev nD) (t : Fin cfg0.N) (r : Fin 2000) (a : Fin 1) :
    (iblk m c 1 t : S2000x1.Idx → EReal) (ix2 r a)
      = (m ((c : Thread nD τ).loc main_arg1) : S1000000x1.Idx → EReal) (ix2 (rowOf t r) a) := by
  show (V m c main_arg1 : S1000000x1.Idx → EReal) (((cfg0.win 1).blk t).view.emb (ix2 r a)) = _
  rw [V_main_arg1]
  obtain ⟨e0, e1⟩ := idx1 t
  refine congrArg (m ((c : Thread nD τ).loc main_arg1) : S1000000x1.Idx → EReal) ?_
  funext d; apply Fin.ext
  match d with
  | ⟨0, _⟩ => show win0_1.index t (0 : Fin 2) * 2000 + 1 * r.val = 2000 * t.val + r.val; omega
  | ⟨1, _⟩ => show win0_1.index t (1 : Fin 2) * 1 + 1 * a.val = a.val; omega

/-- Window 2's block index at grid point `t` is `(t, 0)`. -/
theorem idx2 : ∀ t : Fin cfg0.N, win0_2.index t (0 : Fin 2) = t.val ∧ win0_2.index t (1 : Fin 2) = 0 :=
  (by decide +kernel : ∀ t : Fin grid0.N, _)

/-- Window 2's block at grid point `t` is rows `2000 * t` to `2000 * t + 1999` of the array. -/
theorem blk2 (c : Dev nD) (t : Fin cfg0.N) (r : Fin 2000) (a : Fin 4) :
    (iblk m c 2 t : S2000x4.Idx → EReal) (ix2 r a)
      = (m ((c : Thread nD τ).loc main_arg2) : S1000000x4.Idx → EReal) (ix2 (rowOf t r) a) := by
  show (V m c main_arg2 : S1000000x4.Idx → EReal) (((cfg0.win 2).blk t).view.emb (ix2 r a)) = _
  rw [V_main_arg2]
  obtain ⟨e0, e1⟩ := idx2 t
  refine congrArg (m ((c : Thread nD τ).loc main_arg2) : S1000000x4.Idx → EReal) ?_
  funext d; apply Fin.ext
  match d with
  | ⟨0, _⟩ => show win0_2.index t (0 : Fin 2) * 2000 + 1 * r.val = 2000 * t.val + r.val; omega
  | ⟨1, _⟩ => show win0_2.index t (1 : Fin 2) * 4 + 1 * a.val = a.val; omega

/-! ## The whole-array windows: 3 to 14

Each has block index `(0, 0)` at every grid point and its block is the whole array, so a block's index is the array's. -/

/-- Window 3's block index is `(0, 0)` at every grid point. -/
theorem idx3 : ∀ t : Fin cfg0.N, win0_3.index t (0 : Fin 2) = 0 ∧ win0_3.index t (1 : Fin 2) = 0 :=
  (by decide +kernel : ∀ t : Fin grid0.N, _)

/-- Window 3's block is the whole array: an index of the block is the same index of the array. -/
theorem emb3 (t : Fin cfg0.N) (j : S9x30.Idx) : ((cfg0.win 3).blk t).view.emb j = j := by
  obtain ⟨e0, e1⟩ := idx3 t
  funext d; apply Fin.ext
  match d with
  | ⟨0, _⟩ => show win0_3.index t (0 : Fin 2) * 9 + 1 * (j 0).val = (j 0).val; omega
  | ⟨1, _⟩ => show win0_3.index t (1 : Fin 2) * 30 + 1 * (j 1).val = (j 1).val; omega

/-- Window 4's block index is `(0, 0)` at every grid point. -/
theorem idx4 : ∀ t : Fin cfg0.N, win0_4.index t (0 : Fin 2) = 0 ∧ win0_4.index t (1 : Fin 2) = 0 :=
  (by decide +kernel : ∀ t : Fin grid0.N, _)

/-- Window 4's block is the whole array: an index of the block is the same index of the array. -/
theorem emb4 (t : Fin cfg0.N) (j : S1x30.Idx) : ((cfg0.win 4).blk t).view.emb j = j := by
  obtain ⟨e0, e1⟩ := idx4 t
  funext d; apply Fin.ext
  match d with
  | ⟨0, _⟩ => show win0_4.index t (0 : Fin 2) * 1 + 1 * (j 0).val = (j 0).val; omega
  | ⟨1, _⟩ => show win0_4.index t (1 : Fin 2) * 30 + 1 * (j 1).val = (j 1).val; omega

/-- Window 5's block index is `(0, 0)` at every grid point. -/
theorem idx5 : ∀ t : Fin cfg0.N, win0_5.index t (0 : Fin 2) = 0 ∧ win0_5.index t (1 : Fin 2) = 0 :=
  (by decide +kernel : ∀ t : Fin grid0.N, _)

/-- Window 5's block is the whole array: an index of the block is the same index of the array. -/
theorem emb5 (t : Fin cfg0.N) (j : S30x30.Idx) : ((cfg0.win 5).blk t).view.emb j = j := by
  obtain ⟨e0, e1⟩ := idx5 t
  funext d; apply Fin.ext
  match d with
  | ⟨0, _⟩ => show win0_5.index t (0 : Fin 2) * 30 + 1 * (j 0).val = (j 0).val; omega
  | ⟨1, _⟩ => show win0_5.index t (1 : Fin 2) * 30 + 1 * (j 1).val = (j 1).val; omega

/-- Window 6's block index is `(0, 0)` at every grid point. -/
theorem idx6 : ∀ t : Fin cfg0.N, win0_6.index t (0 : Fin 2) = 0 ∧ win0_6.index t (1 : Fin 2) = 0 :=
  (by decide +kernel : ∀ t : Fin grid0.N, _)

/-- Window 6's block is the whole array: an index of the block is the same index of the array. -/
theorem emb6 (t : Fin cfg0.N) (j : S1x30.Idx) : ((cfg0.win 6).blk t).view.emb j = j := by
  obtain ⟨e0, e1⟩ := idx6 t
  funext d; apply Fin.ext
  match d with
  | ⟨0, _⟩ => show win0_6.index t (0 : Fin 2) * 1 + 1 * (j 0).val = (j 0).val; omega
  | ⟨1, _⟩ => show win0_6.index t (1 : Fin 2) * 30 + 1 * (j 1).val = (j 1).val; omega

/-- Window 7's block index is `(0, 0)` at every grid point. -/
theorem idx7 : ∀ t : Fin cfg0.N, win0_7.index t (0 : Fin 2) = 0 ∧ win0_7.index t (1 : Fin 2) = 0 :=
  (by decide +kernel : ∀ t : Fin grid0.N, _)

/-- Window 7's block is the whole array: an index of the block is the same index of the array. -/
theorem emb7 (t : Fin cfg0.N) (j : S30x30.Idx) : ((cfg0.win 7).blk t).view.emb j = j := by
  obtain ⟨e0, e1⟩ := idx7 t
  funext d; apply Fin.ext
  match d with
  | ⟨0, _⟩ => show win0_7.index t (0 : Fin 2) * 30 + 1 * (j 0).val = (j 0).val; omega
  | ⟨1, _⟩ => show win0_7.index t (1 : Fin 2) * 30 + 1 * (j 1).val = (j 1).val; omega

/-- Window 8's block index is `(0, 0)` at every grid point. -/
theorem idx8 : ∀ t : Fin cfg0.N, win0_8.index t (0 : Fin 2) = 0 ∧ win0_8.index t (1 : Fin 2) = 0 :=
  (by decide +kernel : ∀ t : Fin grid0.N, _)

/-- Window 8's block is the whole array: an index of the block is the same index of the array. -/
theorem emb8 (t : Fin cfg0.N) (j : S1x30.Idx) : ((cfg0.win 8).blk t).view.emb j = j := by
  obtain ⟨e0, e1⟩ := idx8 t
  funext d; apply Fin.ext
  match d with
  | ⟨0, _⟩ => show win0_8.index t (0 : Fin 2) * 1 + 1 * (j 0).val = (j 0).val; omega
  | ⟨1, _⟩ => show win0_8.index t (1 : Fin 2) * 30 + 1 * (j 1).val = (j 1).val; omega

/-- Window 9's block index is `(0, 0)` at every grid point. -/
theorem idx9 : ∀ t : Fin cfg0.N, win0_9.index t (0 : Fin 2) = 0 ∧ win0_9.index t (1 : Fin 2) = 0 :=
  (by decide +kernel : ∀ t : Fin grid0.N, _)

/-- Window 9's block is the whole array: an index of the block is the same index of the array. -/
theorem emb9 (t : Fin cfg0.N) (j : S30x1.Idx) : ((cfg0.win 9).blk t).view.emb j = j := by
  obtain ⟨e0, e1⟩ := idx9 t
  funext d; apply Fin.ext
  match d with
  | ⟨0, _⟩ => show win0_9.index t (0 : Fin 2) * 30 + 1 * (j 0).val = (j 0).val; omega
  | ⟨1, _⟩ => show win0_9.index t (1 : Fin 2) * 1 + 1 * (j 1).val = (j 1).val; omega

/-- Window 10's block index is `(0, 0)` at every grid point. -/
theorem idx10 : ∀ t : Fin cfg0.N, win0_10.index t (0 : Fin 2) = 0 ∧ win0_10.index t (1 : Fin 2) = 0 :=
  (by decide +kernel : ∀ t : Fin grid0.N, _)

/-- Window 10's block is the whole array: an index of the block is the same index of the array. -/
theorem emb10 (t : Fin cfg0.N) (j : S1x1.Idx) : ((cfg0.win 10).blk t).view.emb j = j := by
  obtain ⟨e0, e1⟩ := idx10 t
  funext d; apply Fin.ext
  match d with
  | ⟨0, _⟩ => show win0_10.index t (0 : Fin 2) * 1 + 1 * (j 0).val = (j 0).val; omega
  | ⟨1, _⟩ => show win0_10.index t (1 : Fin 2) * 1 + 1 * (j 1).val = (j 1).val; omega

/-- Window 11's block index is `(0, 0)` at every grid point. -/
theorem idx11 : ∀ t : Fin cfg0.N, win0_11.index t (0 : Fin 2) = 0 ∧ win0_11.index t (1 : Fin 2) = 0 :=
  (by decide +kernel : ∀ t : Fin grid0.N, _)

/-- Window 11's block is the whole array: an index of the block is the same index of the array. -/
theorem emb11 (t : Fin cfg0.N) (j : S30x9.Idx) : ((cfg0.win 11).blk t).view.emb j = j := by
  obtain ⟨e0, e1⟩ := idx11 t
  funext d; apply Fin.ext
  match d with
  | ⟨0, _⟩ => show win0_11.index t (0 : Fin 2) * 30 + 1 * (j 0).val = (j 0).val; omega
  | ⟨1, _⟩ => show win0_11.index t (1 : Fin 2) * 9 + 1 * (j 1).val = (j 1).val; omega

/-- Window 12's block index is `(0, 0)` at every grid point. -/
theorem idx12 : ∀ t : Fin cfg0.N, win0_12.index t (0 : Fin 2) = 0 ∧ win0_12.index t (1 : Fin 2) = 0 :=
  (by decide +kernel : ∀ t : Fin grid0.N, _)

/-- Window 12's block is the whole array: an index of the block is the same index of the array. -/
theorem emb12 (t : Fin cfg0.N) (j : S30x30.Idx) : ((cfg0.win 12).blk t).view.emb j = j := by
  obtain ⟨e0, e1⟩ := idx12 t
  funext d; apply Fin.ext
  match d with
  | ⟨0, _⟩ => show win0_12.index t (0 : Fin 2) * 30 + 1 * (j 0).val = (j 0).val; omega
  | ⟨1, _⟩ => show win0_12.index t (1 : Fin 2) * 30 + 1 * (j 1).val = (j 1).val; omega

/-- Window 13's block index is `(0, 0)` at every grid point. -/
theorem idx13 : ∀ t : Fin cfg0.N, win0_13.index t (0 : Fin 2) = 0 ∧ win0_13.index t (1 : Fin 2) = 0 :=
  (by decide +kernel : ∀ t : Fin grid0.N, _)

/-- Window 13's block is the whole array: an index of the block is the same index of the array. -/
theorem emb13 (t : Fin cfg0.N) (j : S30x30.Idx) : ((cfg0.win 13).blk t).view.emb j = j := by
  obtain ⟨e0, e1⟩ := idx13 t
  funext d; apply Fin.ext
  match d with
  | ⟨0, _⟩ => show win0_13.index t (0 : Fin 2) * 30 + 1 * (j 0).val = (j 0).val; omega
  | ⟨1, _⟩ => show win0_13.index t (1 : Fin 2) * 30 + 1 * (j 1).val = (j 1).val; omega

/-- Window 14's block index is `(0, 0)` at every grid point. -/
theorem idx14 : ∀ t : Fin cfg0.N, win0_14.index t (0 : Fin 2) = 0 ∧ win0_14.index t (1 : Fin 2) = 0 :=
  (by decide +kernel : ∀ t : Fin grid0.N, _)

/-- Window 14's block is the whole array: an index of the block is the same index of the array. -/
theorem emb14 (t : Fin cfg0.N) (j : S1x30.Idx) : ((cfg0.win 14).blk t).view.emb j = j := by
  obtain ⟨e0, e1⟩ := idx14 t
  funext d; apply Fin.ext
  match d with
  | ⟨0, _⟩ => show win0_14.index t (0 : Fin 2) * 1 + 1 * (j 0).val = (j 0).val; omega
  | ⟨1, _⟩ => show win0_14.index t (1 : Fin 2) * 30 + 1 * (j 1).val = (j 1).val; omega

/-! ## What the host operations before the region leave in the windows' arrays

At extended reals a conversion to a narrower float type is the identity, so a converted array is the argument itself
(or its transpose); a reshape is a shape cast. -/

/-- The array of window 3 is `main_arg3` converted: at extended reals, `main_arg3` itself. -/
theorem V_w3 (c : Dev nD) : (V m c main_v4 : S9x30.Idx → EReal) = (m ((c : Thread nD τ).loc main_arg3) : S9x30.Idx → EReal) := by
  show StableHlo.after hostOps0 (fun b => m (c, b)) (Proc.devRef .tc main_v4) = _
  after_results
  rfl

/-- The array of window 4 is `main_arg4` reshaped to one row. -/
theorem V_w4 (c : Dev nD) : (V m c main_v0 : S1x30.Idx → EReal) = shapeCast S1x30 (m ((c : Thread nD τ).loc main_arg4) : S30.Idx → EReal) shapeCasts_S30_S1x30 := by
  show StableHlo.after hostOps0 (fun b => m (c, b)) (Proc.devRef .tc main_v0) = _
  after_results
  rfl

/-- The array of window 5 is `main_arg5` converted: at extended reals, `main_arg5` itself. -/
theorem V_w5 (c : Dev nD) : (V m c main_v5 : S30x30.Idx → EReal) = (m ((c : Thread nD τ).loc main_arg5) : S30x30.Idx → EReal) := by
  show StableHlo.after hostOps0 (fun b => m (c, b)) (Proc.devRef .tc main_v5) = _
  after_results
  rfl

/-- The array of window 6 is `main_arg6` reshaped to one row. -/
theorem V_w6 (c : Dev nD) : (V m c main_v1 : S1x30.Idx → EReal) = shapeCast S1x30 (m ((c : Thread nD τ).loc main_arg6) : S30.Idx → EReal) shapeCasts_S30_S1x30 := by
  show StableHlo.after hostOps0 (fun b => m (c, b)) (Proc.devRef .tc main_v1) = _
  after_results
  rfl

/-- The array of window 7 is `main_arg7` converted: at extended reals, `main_arg7` itself. -/
theorem V_w7 (c : Dev nD) : (V m c main_v6 : S30x30.Idx → EReal) = (m ((c : Thread nD τ).loc main_arg7) : S30x30.Idx → EReal) := by
  show StableHlo.after hostOps0 (fun b => m (c, b)) (Proc.devRef .tc main_v6) = _
  after_results
  rfl

/-- The array of window 8 is `main_arg8` reshaped to one row. -/
theorem V_w8 (c : Dev nD) : (V m c main_v2 : S1x30.Idx → EReal) = shapeCast S1x30 (m ((c : Thread nD τ).loc main_arg8) : S30.Idx → EReal) shapeCasts_S30_S1x30 := by
  show StableHlo.after hostOps0 (fun b => m (c, b)) (Proc.devRef .tc main_v2) = _
  after_results
  rfl

/-- The array of window 9 is `main_arg9` converted: at extended reals, `main_arg9` itself. -/
theorem V_w9 (c : Dev nD) : (V m c main_v7 : S30x1.Idx → EReal) = (m ((c : Thread nD τ).loc main_arg9) : S30x1.Idx → EReal) := by
  show StableHlo.after hostOps0 (fun b => m (c, b)) (Proc.devRef .tc main_v7) = _
  after_results
  rfl

/-- The array of window 10 is `main_arg10` reshaped to one row. -/
theorem V_w10 (c : Dev nD) : (V m c main_v3 : S1x1.Idx → EReal) = shapeCast S1x1 (m ((c : Thread nD τ).loc main_arg10) : S1.Idx → EReal) shapeCasts_S1_S1x1 := by
  show StableHlo.after hostOps0 (fun b => m (c, b)) (Proc.devRef .tc main_v3) = _
  after_results
  rfl

/-- The array of window 11 is the transpose of `main_arg3`, converted: at extended reals, the transpose itself. -/
theorem V_w11 (c : Dev nD) : (V m c main_v9 : S30x9.Idx → EReal) = transpose S30x9 [1, 0] (m ((c : Thread nD τ).loc main_arg3) : S9x30.Idx → EReal) transposes_S9x30_S30x9_1_0 := by
  show StableHlo.after hostOps0 (fun b => m (c, b)) (Proc.devRef .tc main_v9) = _
  after_results
  rfl

/-- The array of window 12 is the transpose of `main_arg5`, converted: at extended reals, the transpose itself. -/
theorem V_w12 (c : Dev nD) : (V m c main_v11 : S30x30.Idx → EReal) = transpose S30x30 [1, 0] (m ((c : Thread nD τ).loc main_arg5) : S30x30.Idx → EReal) transposes_S30x30_S30x30_1_0 := by
  show StableHlo.after hostOps0 (fun b => m (c, b)) (Proc.devRef .tc main_v11) = _
  after_results
  rfl

/-- The array of window 13 is the transpose of `main_arg7`, converted: at extended reals, the transpose itself. -/
theorem V_w13 (c : Dev nD) : (V m c main_v13 : S30x30.Idx → EReal) = transpose S30x30 [1, 0] (m ((c : Thread nD τ).loc main_arg7) : S30x30.Idx → EReal) transposes_S30x30_S30x30_1_0 := by
  show StableHlo.after hostOps0 (fun b => m (c, b)) (Proc.devRef .tc main_v13) = _
  after_results
  rfl

/-- The array of window 14 is `main_arg9` flattened, then reshaped to one row. -/
theorem V_w14 (c : Dev nD) : (V m c main_v15 : S1x30.Idx → EReal) = shapeCast S1x30 (shapeCast S30 (m ((c : Thread nD τ).loc main_arg9) : S30x1.Idx → EReal) shapeCasts_S30x1_S30) shapeCasts_S30_S1x30 := by
  show StableHlo.after hostOps0 (fun b => m (c, b)) (Proc.devRef .tc main_v15) = _
  after_results
  rfl

/-! ## The blocks of windows 3 to 14 in terms of the arguments -/

/-- Window 3's block is `main_arg3`. -/
theorem blk3 (c : Dev nD) (t : Fin cfg0.N) (j : S9x30.Idx) :
    (iblk m c 3 t : S9x30.Idx → EReal) j = (m ((c : Thread nD τ).loc main_arg3) : S9x30.Idx → EReal) j := by
  show (V m c main_v4 : S9x30.Idx → EReal) (((cfg0.win 3).blk t).view.emb j) = _
  rw [emb3, V_w3]

/-- Window 4's block is the one row holding `main_arg4`. -/
theorem blk4 (c : Dev nD) (t : Fin cfg0.N) (q : Fin 30) :
    (iblk m c 4 t : S1x30.Idx → EReal) (ix2 (0 : Fin 1) q) = (m ((c : Thread nD τ).loc main_arg4) : S30.Idx → EReal) (ix1 q) := by
  show (V m c main_v0 : S1x30.Idx → EReal) (((cfg0.win 4).blk t).view.emb (ix2 (0 : Fin 1) q)) = _
  rw [emb4, V_w4]
  exact shapeCast_a_1a_apply _ _ 0 q

/-- Window 5's block is `main_arg5`. -/
theorem blk5 (c : Dev nD) (t : Fin cfg0.N) (j : S30x30.Idx) :
    (iblk m c 5 t : S30x30.Idx → EReal) j = (m ((c : Thread nD τ).loc main_arg5) : S30x30.Idx → EReal) j := by
  show (V m c main_v5 : S30x30.Idx → EReal) (((cfg0.win 5).blk t).view.emb j) = _
  rw [emb5, V_w5]

/-- Window 6's block is the one row holding `main_arg6`. -/
theorem blk6 (c : Dev nD) (t : Fin cfg0.N) (q : Fin 30) :
    (iblk m c 6 t : S1x30.Idx → EReal) (ix2 (0 : Fin 1) q) = (m ((c : Thread nD τ).loc main_arg6) : S30.Idx → EReal) (ix1 q) := by
  show (V m c main_v1 : S1x30.Idx → EReal) (((cfg0.win 6).blk t).view.emb (ix2 (0 : Fin 1) q)) = _
  rw [emb6, V_w6]
  exact shapeCast_a_1a_apply _ _ 0 q

/-- Window 7's block is `main_arg7`. -/
theorem blk7 (c : Dev nD) (t : Fin cfg0.N) (j : S30x30.Idx) :
    (iblk m c 7 t : S30x30.Idx → EReal) j = (m ((c : Thread nD τ).loc main_arg7) : S30x30.Idx → EReal) j := by
  show (V m c main_v6 : S30x30.Idx → EReal) (((cfg0.win 7).blk t).view.emb j) = _
  rw [emb7, V_w7]

/-- Window 8's block is the one row holding `main_arg8`. -/
theorem blk8 (c : Dev nD) (t : Fin cfg0.N) (q : Fin 30) :
    (iblk m c 8 t : S1x30.Idx → EReal) (ix2 (0 : Fin 1) q) = (m ((c : Thread nD τ).loc main_arg8) : S30.Idx → EReal) (ix1 q) := by
  show (V m c main_v2 : S1x30.Idx → EReal) (((cfg0.win 8).blk t).view.emb (ix2 (0 : Fin 1) q)) = _
  rw [emb8, V_w8]
  exact shapeCast_a_1a_apply _ _ 0 q

/-- Window 9's block is `main_arg9`. -/
theorem blk9 (c : Dev nD) (t : Fin cfg0.N) (j : S30x1.Idx) :
    (iblk m c 9 t : S30x1.Idx → EReal) j = (m ((c : Thread nD τ).loc main_arg9) : S30x1.Idx → EReal) j := by
  show (V m c main_v7 : S30x1.Idx → EReal) (((cfg0.win 9).blk t).view.emb j) = _
  rw [emb9, V_w9]

/-- Window 10's block is the one row holding `main_arg10`. -/
theorem blk10 (c : Dev nD) (t : Fin cfg0.N) (q : Fin 1) :
    (iblk m c 10 t : S1x1.Idx → EReal) (ix2 (0 : Fin 1) q) = (m ((c : Thread nD τ).loc main_arg10) : S1.Idx → EReal) (ix1 q) := by
  show (V m c main_v3 : S1x1.Idx → EReal) (((cfg0.win 10).blk t).view.emb (ix2 (0 : Fin 1) q)) = _
  rw [emb10, V_w10]
  exact shapeCast_a_1a_apply _ _ 0 q

/-- Window 11's block is the transpose of `main_arg3`. -/
theorem blk11 (c : Dev nD) (t : Fin cfg0.N) (j : S30x9.Idx) :
    (iblk m c 11 t : S30x9.Idx → EReal) j
      = transpose S30x9 [1, 0] (m ((c : Thread nD τ).loc main_arg3) : S9x30.Idx → EReal) transposes_S9x30_S30x9_1_0 j := by
  show (V m c main_v9 : S30x9.Idx → EReal) (((cfg0.win 11).blk t).view.emb j) = _
  rw [emb11, V_w11]

/-- Window 12's block is the transpose of `main_arg5`. -/
theorem blk12 (c : Dev nD) (t : Fin cfg0.N) (j : S30x30.Idx) :
    (iblk m c 12 t : S30x30.Idx → EReal) j
      = transpose S30x30 [1, 0] (m ((c : Thread nD τ).loc main_arg5) : S30x30.Idx → EReal) transposes_S30x30_S30x30_1_0 j := by
  show (V m c main_v11 : S30x30.Idx → EReal) (((cfg0.win 12).blk t).view.emb j) = _
  rw [emb12, V_w12]

/-- Window 13's block is the transpose of `main_arg7`. -/
theorem blk13 (c : Dev nD) (t : Fin cfg0.N) (j : S30x30.Idx) :
    (iblk m c 13 t : S30x30.Idx → EReal) j
      = transpose S30x30 [1, 0] (m ((c : Thread nD τ).loc main_arg7) : S30x30.Idx → EReal) transposes_S30x30_S30x30_1_0 j := by
  show (V m c main_v13 : S30x30.Idx → EReal) (((cfg0.win 13).blk t).view.emb j) = _
  rw [emb13, V_w13]

/-- Window 14's block is the one row holding `main_arg9` flattened. -/
theorem blk14 (c : Dev nD) (t : Fin cfg0.N) (q : Fin 30) :
    (iblk m c 14 t : S1x30.Idx → EReal) (ix2 (0 : Fin 1) q)
      = shapeCast S30 (m ((c : Thread nD τ).loc main_arg9) : S30x1.Idx → EReal) shapeCasts_S30x1_S30 (ix1 q) := by
  show (V m c main_v15 : S1x30.Idx → EReal) (((cfg0.win 14).blk t).view.emb (ix2 (0 : Fin 1) q)) = _
  rw [emb14, V_w14]
  exact shapeCast_a_1a_apply _ _ 0 q

end Cert.KernelIdeal.InBlocks

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibRowwise.lean ====
/-
  Row-wise operations, on a tile of rows and on the whole matrix, agree row by row (ideal values).

  A kernel that tiles the rows of its inputs applies, to each tile, operations that act on every row by itself: a
  product with a matrix shared by all rows, the sum with a bias row, a comparison with zero choosing between two
  values, a product entry by entry, a cut of columns, columns laid side by side. The plain program applies the
  same operations to the whole matrices. `RowEq r i xb X` says that row `r` of the tile `xb` is row `i` of the whole
  `X`; each lemma below carries that relation through one operation, in the spelling a matrix unit's tile
  program uses on the left and the spelling of the host program on the right. Over the extended reals narrowing a
  float is the identity and both products are the textbook sum over the contracted index. Nothing depends on sizes.
-/
import proofs.«133073_j23579370455607_1_alg».proof.Proof.LibAffineRows

noncomputable section

namespace Cert.Lib

open Idealize.ShloMosaic Idealize.ShloMosaic.ValueIdx

variable {R N : ℕ}

/-- Row `r` of the tile `xb` is row `i` of the whole matrix `X`. -/
def RowEq {α : Type} {A : ℕ} (r : Fin R) (i : Fin N) (xb : (⟨2, ![R, A]⟩ : Shape).Idx → α)
    (X : (⟨2, ![N, A]⟩ : Shape).Idx → α) : Prop :=
  ∀ a : Fin A, xb (ix2 r a) = X (ix2 i a)

variable {r : Fin R} {i : Fin N}

/-- A matrix unit's product of any two operands into zeros, at `(r, c)`: the textbook sum. -/
theorem matmul_zero_sum {K M : ℕ} {φ₁ φ₂ : FTy} {d : DotDims ⟨2, ![R, K]⟩ ⟨2, ![K, M]⟩ ⟨2, ![R, M]⟩} (h : PlainDot d)
    (x : FVec Ideal ⟨2, ![R, K]⟩ φ₁) (w : FVec Ideal ⟨2, ![K, M]⟩ φ₂) (r : Fin R) (c : Fin M) :
    matmul d none x w (constant ⟨2, ![R, M]⟩ .f32 0x00000000#32) (ix2 r c)
      = ∑ k : Fin K, (x (ix2 r k) : EReal) * (w (ix2 k c) : EReal) := by
  simp only [matmul]
  rw [Ideal.matmul_constant_zero_apply]
  exact h.sum_eq (fun i => x i) (fun i => w i) r c

/-- Narrowing a float is the identity over the extended reals. -/
theorem RowEq.narrow {M : ℕ} {v : FVec Ideal ⟨2, ![R, M]⟩ .f32} {X : FVec Ideal ⟨2, ![N, M]⟩ .f32}
    (hx : RowEq (α := EReal) r i v X) (ht : FTy.bits .bf16 < FTy.bits .f32) :
    RowEq (α := EReal) r i (truncf .bf16 v ht) X :=
  fun a => hx a

/-- THE PRODUCT: the tile's rows times the (re-cast) weight block, into zeros, against the host's
    `dot_general` of the whole matrix with a weight matrix that has the block's entries. -/
theorem RowEq.dense {K M : ℕ} {φ₁ φ₂ : FTy}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    {xb : FVec Ideal ⟨2, ![R, K]⟩ φ₁} {X : FVec Ideal ⟨2, ![N, K]⟩ .f32}
    {wb : FVec Ideal ⟨2, ![K, M]⟩ φ₂} {w : FVec Ideal ⟨2, ![K, M]⟩ .f32}
    (hx : RowEq (α := EReal) r i xb X) (hw : ∀ j : (⟨2, ![K, M]⟩ : Shape).Idx, (wb j : EReal) = w j)
    (hsc : (⟨2, ![K, M]⟩ : Shape).ShapeCasts ⟨2, ![K, M]⟩) :
    RowEq (α := EReal) r i
      (matmul dB none xb (shapeCast ⟨2, ![K, M]⟩ wb hsc) (constant ⟨2, ![R, M]⟩ .f32 0x00000000#32))
      (Host.dotGeneral dW none X w) := by
  intro q
  rw [matmul_zero_sum hB, dotGeneral_apply hW, shapeCast_self]
  exact Finset.sum_congr rfl fun k _ => by rw [hx k, hw]

/-- A bias kept as a `[1, M]` block and broadcast over the tile's rows, against the bias vector `[M]` made a row and
    broadcast over all rows. -/
theorem RowEq.bias {M : ℕ} {b2 : FVec Ideal ⟨2, ![1, M]⟩ .f32} {b : FVec Ideal ⟨1, ![M]⟩ .f32}
    (hb : ∀ q : Fin M, b2 (ix2 (0 : Fin 1) q) = b (ix1 q))
    (hsc : (⟨2, ![1, M]⟩ : Shape).ShapeCasts ⟨2, ![1, M]⟩) (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) :
    RowEq (α := EReal) r i (broadcastTo ⟨2, ![R, M]⟩ (shapeCast ⟨2, ![1, M]⟩ b2 hsc) hbc)
      (broadcastInDim ⟨2, ![N, M]⟩ ![0, 1] h2 (broadcastInDim ⟨2, ![1, M]⟩ ![1] h1 b)) := by
  intro q
  rw [bias_rows_apply, broadcastTo_1b_ab_apply, shapeCast_self, hb]

/-- Sums entry by entry. -/
theorem RowEq.addf {M : ℕ} {a a' : FVec Ideal ⟨2, ![R, M]⟩ .f32} {A A' : FVec Ideal ⟨2, ![N, M]⟩ .f32}
    (h : RowEq (α := EReal) r i a A) (h' : RowEq (α := EReal) r i a' A') :
    RowEq (α := EReal) r i (addf a a') (addf A A') := by
  intro q
  rw [addf_apply, addf_apply, h q, h' q]

/-- Products entry by entry. -/
theorem RowEq.mulf {M : ℕ} {a a' : FVec Ideal ⟨2, ![R, M]⟩ .f32} {A A' : FVec Ideal ⟨2, ![N, M]⟩ .f32}
    (h : RowEq (α := EReal) r i a A) (h' : RowEq (α := EReal) r i a' A') :
    RowEq (α := EReal) r i (mulf a a') (mulf A A') := by
  intro q
  rw [mulf_apply, mulf_apply, h q, h' q]

/-- THE LEAKY RECTIFIER: where an entry exceeds the constant `w0` the entry itself, elsewhere the constant `ws`
    times it; the tile splats scalars, the host broadcasts rank-0 constants. -/
theorem RowEq.leaky {M : ℕ} {z : FVec Ideal ⟨2, ![R, M]⟩ .f32} {Z : FVec Ideal ⟨2, ![N, M]⟩ .f32}
    (hz : RowEq (α := EReal) r i z Z) (w0 ws : BitVec 32)
    (h0 : (⟨0, ![]⟩ : Shape).BroadcastsInDim ⟨2, ![N, M]⟩ (![] : Fin 0 → Fin 2)) :
    RowEq (α := EReal) r i
      (select (cmpf .ogt z (broadcast ⟨2, ![R, M]⟩ (Scalar.ofBits (F := Ideal) .f32 w0))) z
        (Idealize.ShloMosaic.mulf (broadcast ⟨2, ![R, M]⟩ (Scalar.ofBits (F := Ideal) .f32 ws)) z))
      (select (cmpf .ogt Z (broadcastInDim ⟨2, ![N, M]⟩ ![] h0 (constant (F := Ideal) ⟨0, ![]⟩ .f32 w0))) Z
        (Idealize.ShloMosaic.mulf (broadcastInDim ⟨2, ![N, M]⟩ ![] h0 (constant (F := Ideal) ⟨0, ![]⟩ .f32 ws)) Z)) := by
  intro q
  dsimp only [select, cmpf, Idealize.ShloMosaic.mulf, broadcast, broadcastInDim, constant]
  rw [hz q]

/-- THE RECTIFIER'S SLOPE: where an entry exceeds `w0` the constant `w1`, elsewhere the constant `ws`. -/
theorem RowEq.slope {M : ℕ} {z : FVec Ideal ⟨2, ![R, M]⟩ .f32} {Z : FVec Ideal ⟨2, ![N, M]⟩ .f32}
    (hz : RowEq (α := EReal) r i z Z) (w0 w1 ws : BitVec 32)
    (h0 : (⟨0, ![]⟩ : Shape).BroadcastsInDim ⟨2, ![N, M]⟩ (![] : Fin 0 → Fin 2)) :
    RowEq (α := EReal) r i
      (select (cmpf .ogt z (broadcast ⟨2, ![R, M]⟩ (Scalar.ofBits (F := Ideal) .f32 w0)))
        (broadcast ⟨2, ![R, M]⟩ (Scalar.ofBits (F := Ideal) .f32 w1)) (broadcast ⟨2, ![R, M]⟩ (Scalar.ofBits (F := Ideal) .f32 ws)))
      (select (cmpf .ogt Z (broadcastInDim ⟨2, ![N, M]⟩ ![] h0 (constant (F := Ideal) ⟨0, ![]⟩ .f32 w0)))
        (broadcastInDim ⟨2, ![N, M]⟩ ![] h0 (constant (F := Ideal) ⟨0, ![]⟩ .f32 w1)) (broadcastInDim ⟨2, ![N, M]⟩ ![] h0 (constant (F := Ideal) ⟨0, ![]⟩ .f32 ws))) := by
  intro q
  dsimp only [select, cmpf, broadcast, broadcastInDim, constant]
  rw [hz q]

/-- A cut of the columns from `o` on. -/
theorem RowEq.cols {α : Type} {A M : ℕ} (o : ℕ) {x : (⟨2, ![R, A]⟩ : Shape).Idx → α} {X : (⟨2, ![N, A]⟩ : Shape).Idx → α}
    (hx : RowEq r i x X) (hs : (⟨2, ![R, A]⟩ : Shape).Slices ![0, o] ⟨2, ![R, M]⟩)
    (hS : (⟨2, ![N, A]⟩ : Shape).Slices ![0, o] ⟨2, ![N, M]⟩) :
    RowEq r i (extractStridedSlice ⟨2, ![R, M]⟩ ![0, o] x hs) (extractStridedSlice ⟨2, ![N, M]⟩ ![0, o] X hS) := by
  intro q
  rw [slice2_axis1_eq, slice2_axis1_eq]
  exact hx _

/-- Three matrices laid side by side, column blocks of widths `A`, `B`, `C`. -/
theorem RowEq.beside {α : Type} {A B C D : ℕ}
    {x0 : (⟨2, ![R, A]⟩ : Shape).Idx → α} {x1 : (⟨2, ![R, B]⟩ : Shape).Idx → α} {x2 : (⟨2, ![R, C]⟩ : Shape).Idx → α}
    {X0 : (⟨2, ![N, A]⟩ : Shape).Idx → α} {X1 : (⟨2, ![N, B]⟩ : Shape).Idx → α} {X2 : (⟨2, ![N, C]⟩ : Shape).Idx → α}
    (h0 : RowEq r i x0 X0) (h1 : RowEq r i x1 X1) (h2 : RowEq r i x2 X2)
    (hc : Shape.Concatenates (([⟨⟨2, ![R, A]⟩, x0⟩, ⟨⟨2, ![R, B]⟩, x1⟩, ⟨⟨2, ![R, C]⟩, x2⟩] : List ((s : Shape) × (s.Idx → α))).map (·.1)) ⟨2, ![R, D]⟩ 1)
    (hC : Shape.Concatenates (([⟨⟨2, ![N, A]⟩, X0⟩, ⟨⟨2, ![N, B]⟩, X1⟩, ⟨⟨2, ![N, C]⟩, X2⟩] : List ((s : Shape) × (s.Idx → α))).map (·.1)) ⟨2, ![N, D]⟩ 1) :
    RowEq r i (concatenate ⟨2, ![R, D]⟩ 1 [⟨⟨2, ![R, A]⟩, x0⟩, ⟨⟨2, ![R, B]⟩, x1⟩, ⟨⟨2, ![R, C]⟩, x2⟩] hc)
      (concatenate ⟨2, ![N, D]⟩ 1 [⟨⟨2, ![N, A]⟩, X0⟩, ⟨⟨2, ![N, B]⟩, X1⟩, ⟨⟨2, ![N, C]⟩, X2⟩] hC) := by
  intro q
  have hD : A + B + C = D := by
    have := hc.2.2
    simpa [Shape.size, Nat.add_assoc] using this
  by_cases hq0 : q.val < A
  · rw [concatenate_apply_piece (1 : Fin 2) _ hc (ix2 r q) 0 (by show (0 : ℕ) < 3; omega) ⟨2, ![R, A]⟩ x0 rfl rfl 0 rfl (ix2 r ⟨q.val, hq0⟩)
        (fun b hb => by match b with | ⟨0, _⟩ => rfl | ⟨1, _⟩ => exact absurd rfl hb) (Nat.zero_add _),
      concatenate_apply_piece (1 : Fin 2) _ hC (ix2 i q) 0 (by show (0 : ℕ) < 3; omega) ⟨2, ![N, A]⟩ X0 rfl rfl 0 rfl (ix2 i ⟨q.val, hq0⟩)
        (fun b hb => by match b with | ⟨0, _⟩ => rfl | ⟨1, _⟩ => exact absurd rfl hb) (Nat.zero_add _)]
    exact h0 _
  · by_cases hq1 : q.val < A + B
    · have hlt : q.val - A < B := by omega
      rw [concatenate_apply_piece (1 : Fin 2) _ hc (ix2 r q) 1 (by show (1 : ℕ) < 3; omega) ⟨2, ![R, B]⟩ x1 rfl rfl A (by simp [Shape.size]) (ix2 r ⟨q.val - A, hlt⟩)
          (fun b hb => by match b with | ⟨0, _⟩ => rfl | ⟨1, _⟩ => exact absurd rfl hb) (by show A + (q.val - A) = q.val; omega),
        concatenate_apply_piece (1 : Fin 2) _ hC (ix2 i q) 1 (by show (1 : ℕ) < 3; omega) ⟨2, ![N, B]⟩ X1 rfl rfl A (by simp [Shape.size]) (ix2 i ⟨q.val - A, hlt⟩)
          (fun b hb => by match b with | ⟨0, _⟩ => rfl | ⟨1, _⟩ => exact absurd rfl hb) (by show A + (q.val - A) = q.val; omega)]
      exact h1 _
    · have hlt : q.val - (A + B) < C := by have := q.isLt; omega
      rw [concatenate_apply_piece (1 : Fin 2) _ hc (ix2 r q) 2 (by show (2 : ℕ) < 3; omega) ⟨2, ![R, C]⟩ x2 rfl rfl (A + B) (by simp [Shape.size]) (ix2 r ⟨q.val - (A + B), hlt⟩)
          (fun b hb => by match b with | ⟨0, _⟩ => rfl | ⟨1, _⟩ => exact absurd rfl hb) (by show A + B + (q.val - (A + B)) = q.val; omega),
        concatenate_apply_piece (1 : Fin 2) _ hC (ix2 i q) 2 (by show (2 : ℕ) < 3; omega) ⟨2, ![N, C]⟩ X2 rfl rfl (A + B) (by simp [Shape.size]) (ix2 i ⟨q.val - (A + B), hlt⟩)
          (fun b hb => by match b with | ⟨0, _⟩ => rfl | ⟨1, _⟩ => exact absurd rfl hb) (by show A + B + (q.val - (A + B)) = q.val; omega)]
      exact h2 _

end Cert.Lib

end
-- ==== Proof.Dots.lean ====
/-
  The contraction records of the two programs are plain matrix products.

  Each record contracts the left operand's column with the right operand's row, one index of the shared extent; the
  result's row is the left operand's row and its column the right operand's column. For the tile program's four
  products this is read off the record's axis lists; for the whole-matrix program the same four facts are the
  generated ones of its run read back.
-/
import proofs.«133073_j23579370455607_1_alg».proof.Proof.Gen.KernelIdeal
import proofs.«133073_j23579370455607_1_alg».proof.Proof.Gen.ReferenceIdeal.Read
import proofs.«133073_j23579370455607_1_alg».proof.Proof.LibAffineRows

noncomputable section

namespace Cert.Dots

open Idealize.ShloMosaic Cert.Lib

section Tile
open Cert.KernelIdeal

theorem k9x30_l0 (i : S2000x30.Idx) (q : dot_S2000x9_S9x30_S2000x30_1_0_0_1_n_n.contr.Idx) : (dot_S2000x9_S9x30_S2000x30_1_0_0_1_n_n.lhsIdx i q 0).val = (i 0).val := by
  unfold DotDims.lhsIdx
  rw [dif_neg (show ¬(0 : Fin S2000x9.rank) ∈ dot_S2000x9_S9x30_S2000x30_1_0_0_1_n_n.lhsBatch by decide), dif_pos (show (0 : Fin S2000x9.rank) ∈ dot_S2000x9_S9x30_S2000x30_1_0_0_1_n_n.lhsNonContracting by decide)]
  rfl
theorem k9x30_l1 (i : S2000x30.Idx) (q : dot_S2000x9_S9x30_S2000x30_1_0_0_1_n_n.contr.Idx) : (dot_S2000x9_S9x30_S2000x30_1_0_0_1_n_n.lhsIdx i q 1).val = (q ⟨0, by decide⟩).val :=
  dot_S2000x9_S9x30_S2000x30_1_0_0_1_n_n.lhsIdx_val_of_single rfl i q
theorem k9x30_r0 (i : S2000x30.Idx) (q : dot_S2000x9_S9x30_S2000x30_1_0_0_1_n_n.contr.Idx) : (dot_S2000x9_S9x30_S2000x30_1_0_0_1_n_n.rhsIdx i q 0).val = (q ⟨0, by decide⟩).val :=
  dot_S2000x9_S9x30_S2000x30_1_0_0_1_n_n.rhsIdx_val_of_single rfl i q
theorem k9x30_r1 (i : S2000x30.Idx) (q : dot_S2000x9_S9x30_S2000x30_1_0_0_1_n_n.contr.Idx) : (dot_S2000x9_S9x30_S2000x30_1_0_0_1_n_n.rhsIdx i q 1).val = (i 1).val := by
  unfold DotDims.rhsIdx
  rw [dif_neg (show ¬(1 : Fin S9x30.rank) ∈ dot_S2000x9_S9x30_S2000x30_1_0_0_1_n_n.rhsBatch by decide), dif_pos (show (1 : Fin S9x30.rank) ∈ dot_S2000x9_S9x30_S2000x30_1_0_0_1_n_n.rhsNonContracting by decide)]
  rfl
/-- The tile's product `S2000x9 · S9x30` is a plain matrix product. -/
theorem k9x30 : PlainDot dot_S2000x9_S9x30_S2000x30_1_0_0_1_n_n := ⟨rfl, rfl, k9x30_l0, k9x30_l1, k9x30_r0, k9x30_r1⟩

theorem k30x30_l0 (i : S2000x30.Idx) (q : dot_S2000x30_S30x30_S2000x30_1_0_0_1_n_n.contr.Idx) : (dot_S2000x30_S30x30_S2000x30_1_0_0_1_n_n.lhsIdx i q 0).val = (i 0).val := by
  unfold DotDims.lhsIdx
  rw [dif_neg (show ¬(0 : Fin S2000x30.rank) ∈ dot_S2000x30_S30x30_S2000x30_1_0_0_1_n_n.lhsBatch by decide), dif_pos (show (0 : Fin S2000x30.rank) ∈ dot_S2000x30_S30x30_S2000x30_1_0_0_1_n_n.lhsNonContracting by decide)]
  rfl
theorem k30x30_l1 (i : S2000x30.Idx) (q : dot_S2000x30_S30x30_S2000x30_1_0_0_1_n_n.contr.Idx) : (dot_S2000x30_S30x30_S2000x30_1_0_0_1_n_n.lhsIdx i q 1).val = (q ⟨0, by decide⟩).val :=
  dot_S2000x30_S30x30_S2000x30_1_0_0_1_n_n.lhsIdx_val_of_single rfl i q
theorem k30x30_r0 (i : S2000x30.Idx) (q : dot_S2000x30_S30x30_S2000x30_1_0_0_1_n_n.contr.Idx) : (dot_S2000x30_S30x30_S2000x30_1_0_0_1_n_n.rhsIdx i q 0).val = (q ⟨0, by decide⟩).val :=
  dot_S2000x30_S30x30_S2000x30_1_0_0_1_n_n.rhsIdx_val_of_single rfl i q
theorem k30x30_r1 (i : S2000x30.Idx) (q : dot_S2000x30_S30x30_S2000x30_1_0_0_1_n_n.contr.Idx) : (dot_S2000x30_S30x30_S2000x30_1_0_0_1_n_n.rhsIdx i q 1).val = (i 1).val := by
  unfold DotDims.rhsIdx
  rw [dif_neg (show ¬(1 : Fin S30x30.rank) ∈ dot_S2000x30_S30x30_S2000x30_1_0_0_1_n_n.rhsBatch by decide), dif_pos (show (1 : Fin S30x30.rank) ∈ dot_S2000x30_S30x30_S2000x30_1_0_0_1_n_n.rhsNonContracting by decide)]
  rfl
/-- The tile's product `S2000x30 · S30x30` is a plain matrix product. -/
theorem k30x30 : PlainDot dot_S2000x30_S30x30_S2000x30_1_0_0_1_n_n := ⟨rfl, rfl, k30x30_l0, k30x30_l1, k30x30_r0, k30x30_r1⟩

theorem k30x1_l0 (i : S2000x1.Idx) (q : dot_S2000x30_S30x1_S2000x1_1_0_0_1_n_n.contr.Idx) : (dot_S2000x30_S30x1_S2000x1_1_0_0_1_n_n.lhsIdx i q 0).val = (i 0).val := by
  unfold DotDims.lhsIdx
  rw [dif_neg (show ¬(0 : Fin S2000x30.rank) ∈ dot_S2000x30_S30x1_S2000x1_1_0_0_1_n_n.lhsBatch by decide), dif_pos (show (0 : Fin S2000x30.rank) ∈ dot_S2000x30_S30x1_S2000x1_1_0_0_1_n_n.lhsNonContracting by decide)]
  rfl
theorem k30x1_l1 (i : S2000x1.Idx) (q : dot_S2000x30_S30x1_S2000x1_1_0_0_1_n_n.contr.Idx) : (dot_S2000x30_S30x1_S2000x1_1_0_0_1_n_n.lhsIdx i q 1).val = (q ⟨0, by decide⟩).val :=
  dot_S2000x30_S30x1_S2000x1_1_0_0_1_n_n.lhsIdx_val_of_single rfl i q
theorem k30x1_r0 (i : S2000x1.Idx) (q : dot_S2000x30_S30x1_S2000x1_1_0_0_1_n_n.contr.Idx) : (dot_S2000x30_S30x1_S2000x1_1_0_0_1_n_n.rhsIdx i q 0).val = (q ⟨0, by decide⟩).val :=
  dot_S2000x30_S30x1_S2000x1_1_0_0_1_n_n.rhsIdx_val_of_single rfl i q
theorem k30x1_r1 (i : S2000x1.Idx) (q : dot_S2000x30_S30x1_S2000x1_1_0_0_1_n_n.contr.Idx) : (dot_S2000x30_S30x1_S2000x1_1_0_0_1_n_n.rhsIdx i q 1).val = (i 1).val := by
  unfold DotDims.rhsIdx
  rw [dif_neg (show ¬(1 : Fin S30x1.rank) ∈ dot_S2000x30_S30x1_S2000x1_1_0_0_1_n_n.rhsBatch by decide), dif_pos (show (1 : Fin S30x1.rank) ∈ dot_S2000x30_S30x1_S2000x1_1_0_0_1_n_n.rhsNonContracting by decide)]
  rfl
/-- The tile's product `S2000x30 · S30x1` is a plain matrix product. -/
theorem k30x1 : PlainDot dot_S2000x30_S30x1_S2000x1_1_0_0_1_n_n := ⟨rfl, rfl, k30x1_l0, k30x1_l1, k30x1_r0, k30x1_r1⟩

theorem k30x9_l0 (i : S2000x9.Idx) (q : dot_S2000x30_S30x9_S2000x9_1_0_0_1_n_n.contr.Idx) : (dot_S2000x30_S30x9_S2000x9_1_0_0_1_n_n.lhsIdx i q 0).val = (i 0).val := by
  unfold DotDims.lhsIdx
  rw [dif_neg (show ¬(0 : Fin S2000x30.rank) ∈ dot_S2000x30_S30x9_S2000x9_1_0_0_1_n_n.lhsBatch by decide), dif_pos (show (0 : Fin S2000x30.rank) ∈ dot_S2000x30_S30x9_S2000x9_1_0_0_1_n_n.lhsNonContracting by decide)]
  rfl
theorem k30x9_l1 (i : S2000x9.Idx) (q : dot_S2000x30_S30x9_S2000x9_1_0_0_1_n_n.contr.Idx) : (dot_S2000x30_S30x9_S2000x9_1_0_0_1_n_n.lhsIdx i q 1).val = (q ⟨0, by decide⟩).val :=
  dot_S2000x30_S30x9_S2000x9_1_0_0_1_n_n.lhsIdx_val_of_single rfl i q
theorem k30x9_r0 (i : S2000x9.Idx) (q : dot_S2000x30_S30x9_S2000x9_1_0_0_1_n_n.contr.Idx) : (dot_S2000x30_S30x9_S2000x9_1_0_0_1_n_n.rhsIdx i q 0).val = (q ⟨0, by decide⟩).val :=
  dot_S2000x30_S30x9_S2000x9_1_0_0_1_n_n.rhsIdx_val_of_single rfl i q
theorem k30x9_r1 (i : S2000x9.Idx) (q : dot_S2000x30_S30x9_S2000x9_1_0_0_1_n_n.contr.Idx) : (dot_S2000x30_S30x9_S2000x9_1_0_0_1_n_n.rhsIdx i q 1).val = (i 1).val := by
  unfold DotDims.rhsIdx
  rw [dif_neg (show ¬(1 : Fin S30x9.rank) ∈ dot_S2000x30_S30x9_S2000x9_1_0_0_1_n_n.rhsBatch by decide), dif_pos (show (1 : Fin S30x9.rank) ∈ dot_S2000x30_S30x9_S2000x9_1_0_0_1_n_n.rhsNonContracting by decide)]
  rfl
/-- The tile's product `S2000x30 · S30x9` is a plain matrix product. -/
theorem k30x9 : PlainDot dot_S2000x30_S30x9_S2000x9_1_0_0_1_n_n := ⟨rfl, rfl, k30x9_l0, k30x9_l1, k30x9_r0, k30x9_r1⟩

end Tile

section Whole
open Cert.ReferenceIdeal Cert.ReferenceIdeal.Read

/-- The whole-matrix products are plain matrix products (the four axis facts are the generated ones). -/
theorem w9x30 : PlainDot dot_S1000000x9_S9x30_S1000000x30_1_0_0_1_n_n :=
  ⟨rfl, rfl, lhs_main_v1_0, lhs_main_v1_1, rhs_main_v1_0, rhs_main_v1_1⟩
theorem w30x30 : PlainDot dot_S1000000x30_S30x30_S1000000x30_1_0_0_1_n_n :=
  ⟨rfl, rfl, lhs_main_v10_0, lhs_main_v10_1, rhs_main_v10_0, rhs_main_v10_1⟩
theorem w30x1 : PlainDot dot_S1000000x30_S30x1_S1000000x1_1_0_0_1_n_n :=
  ⟨rfl, rfl, lhs_main_v28_0, lhs_main_v28_1, rhs_main_v28_0, rhs_main_v28_1⟩
theorem w30x9 : PlainDot dot_S1000000x30_S30x9_S1000000x9_1_0_0_1_n_n :=
  ⟨rfl, rfl, lhs_main_v55_0, lhs_main_v55_1, rhs_main_v55_0, rhs_main_v55_1⟩

end Whole

end Cert.Dots

end
-- ==== Proof.Bridge.lean ====
/-
  The tile program's payloads are, row by row, the whole-matrix program's stages.

  A small four-layer perceptron (9 → 30 → 30 → 30 → 1, leaky rectifier of slope 0.01) and the gradient of its
  scalar output with respect to the nine inputs. For a row `x` of the inputs laid side by side:
    z₁ = x·W₁ + b₁,  h₁ = leaky z₁,  z₂ = h₁·W₂ + b₂,  h₂ = leaky z₂,  z₃ = h₂·W₃ + b₃,  h₃ = leaky z₃,
    out = h₃·W₄ + b₄,
    g₃ = W₄ᵀ ⊙ slope z₃,  g₂ = (g₃·W₃ᵀ) ⊙ slope z₂,  g₁ = (g₂·W₂ᵀ) ⊙ slope z₁,  gx = g₁·W₁ᵀ,
  where `leaky z` is `z` where `z > 0` and `0.01·z` elsewhere, `slope z` is `1` where `z > 0` and `0.01` elsewhere,
  and the results are `out` and the three column cuts `gx[0:4]`, `gx[4:5]`, `gx[5:9]`.
  The tile program computes these on 2000 rows at a time (operands narrowed to bf16, which is the identity over the
  extended reals; weights, their transposes and the bias rows handed in as blocks); the whole-matrix program on all
  rows at once. Every operation acts on each row by itself, so row `r` of each of the tile's values is row `i` of the
  whole program's stage as soon as row `r` of the three input tiles is row `i` of the three inputs and the blocks
  hold the weights (`Tile`). The same order of operations on both sides: no algebraic law is needed.
-/
import proofs.«133073_j23579370455607_1_alg».proof.Proof.Gen.KernelIdeal.Frame
import proofs.«133073_j23579370455607_1_alg».proof.Proof.Gen.ReferenceIdeal.Read
import proofs.«133073_j23579370455607_1_alg».proof.Proof.LibRowwise
import proofs.«133073_j23579370455607_1_alg».proof.Proof.Dots

set_option maxRecDepth 16384

noncomputable section

namespace Cert.Bridge

open Idealize.ShloMosaic Idealize.ShloMosaic.ValueIdx Cert.Lib Cert.Dots
open Cert.KernelIdeal Cert.KernelIdeal.Gen Cert.ReferenceIdeal.Read

variable (x0 : Vec Ideal S2000x4 .f32) (x1 : Vec Ideal S2000x1 .f32) (x2 : Vec Ideal S2000x4 .f32)
  (x3 : Vec Ideal S9x30 .bf16) (x4 : Vec Ideal S1x30 .f32) (x5 : Vec Ideal S30x30 .bf16) (x6 : Vec Ideal S1x30 .f32)
  (x7 : Vec Ideal S30x30 .bf16) (x8 : Vec Ideal S1x30 .f32) (x9 : Vec Ideal S30x1 .bf16) (x10 : Vec Ideal S1x1 .f32)
  (x11 : Vec Ideal S30x9 .bf16) (x12 : Vec Ideal S30x30 .bf16) (x13 : Vec Ideal S30x30 .bf16) (x14 : Vec Ideal S1x30 .f32)
  (X0 : (⟨Cert.ReferenceIdeal.S1000000x4, .f32⟩ : BufTy).Contents (Elt Ideal)) (X1 : (⟨Cert.ReferenceIdeal.S1000000x1, .f32⟩ : BufTy).Contents (Elt Ideal)) (X2 : (⟨Cert.ReferenceIdeal.S1000000x4, .f32⟩ : BufTy).Contents (Elt Ideal))
  (W1 : (⟨Cert.ReferenceIdeal.S9x30, .f32⟩ : BufTy).Contents (Elt Ideal)) (b1 : (⟨Cert.ReferenceIdeal.S30, .f32⟩ : BufTy).Contents (Elt Ideal)) (W2 : (⟨Cert.ReferenceIdeal.S30x30, .f32⟩ : BufTy).Contents (Elt Ideal)) (b2 : (⟨Cert.ReferenceIdeal.S30, .f32⟩ : BufTy).Contents (Elt Ideal))
  (W3 : (⟨Cert.ReferenceIdeal.S30x30, .f32⟩ : BufTy).Contents (Elt Ideal)) (b3 : (⟨Cert.ReferenceIdeal.S30, .f32⟩ : BufTy).Contents (Elt Ideal)) (W4 : (⟨Cert.ReferenceIdeal.S30x1, .f32⟩ : BufTy).Contents (Elt Ideal)) (b4 : (⟨Cert.ReferenceIdeal.S1, .f32⟩ : BufTy).Contents (Elt Ideal))
  (r : Fin 2000) (i : Fin 1000000)

/-- Row `r` of the three input tiles is row `i` of the three inputs, and the fifteen blocks hold what the host
    made of the weights: the weight matrices, their transposes, the bias vectors as rows, the last layer's
    column as a row. -/
structure Tile : Prop where
  h0 : RowEq (α := EReal) r i x0 X0
  h1 : RowEq (α := EReal) r i x1 X1
  h2 : RowEq (α := EReal) r i x2 X2
  w1 : ∀ j : S9x30.Idx, (x3 j : EReal) = W1 j
  c1 : ∀ q : Fin 30, (x4 (ix2 (0 : Fin 1) q) : EReal) = b1 (ix1 q)
  w2 : ∀ j : S30x30.Idx, (x5 j : EReal) = W2 j
  c2 : ∀ q : Fin 30, (x6 (ix2 (0 : Fin 1) q) : EReal) = b2 (ix1 q)
  w3 : ∀ j : S30x30.Idx, (x7 j : EReal) = W3 j
  c3 : ∀ q : Fin 30, (x8 (ix2 (0 : Fin 1) q) : EReal) = b3 (ix1 q)
  w4 : ∀ j : S30x1.Idx, (x9 j : EReal) = W4 j
  c4 : ∀ q : Fin 1, (x10 (ix2 (0 : Fin 1) q) : EReal) = b4 (ix1 q)
  t1 : ∀ j : S30x9.Idx, (x11 j : EReal) = val_main_v54 (F := Ideal) W1 j
  t2 : ∀ j : S30x30.Idx, (x12 j : EReal) = val_main_v47 (F := Ideal) W2 j
  t3 : ∀ j : S30x30.Idx, (x13 j : EReal) = val_main_v40 (F := Ideal) W3 j
  r4 : ∀ q : Fin 30, (x14 (ix2 (0 : Fin 1) q) : EReal) = val_main_v32 (F := Ideal) W4 (ix1 q)

/-- Whole-buffer loads and stores go through the rectangle at offsets zero. -/
theorem zero_offsets : (![0, 0] : Fin 2 → Nat) = fun _ => 0 := funext fun a => by fin_cases a <;> rfl

variable {x0 x1 x2 x3 x4 x5 x6 x7 x8 x9 x10 x11 x12 x13 x14 X0 X1 X2 W1 b1 W2 b2 W3 b3 W4 b4 r i}
variable (H : Tile x0 x1 x2 x3 x4 x5 x6 x7 x8 x9 x10 x11 x12 x13 x14 X0 X1 X2 W1 b1 W2 b2 W3 b3 W4 b4 r i)
include H

/-- z₁ = x·W₁ + b₁. -/
theorem z1 : RowEq (α := EReal) r i (k0_pay5 x0 x1 x2 x3 x4) (val_main_v4 (F := Ideal) X0 X1 X2 W1 b1) := by
  unfold k0_pay5 val_main_v4 val_main_v1 val_main_v0 val_main_v3 val_main_v2
  exact RowEq.addf (RowEq.dense k9x30 w9x30 (RowEq.narrow (RowEq.beside H.h0 H.h1 H.h2 _ _) _) H.w1 _) (RowEq.bias H.c1 _ _ _ _)

/-- z₂ = leaky z₁ · W₂ + b₂. -/
theorem z2 : RowEq (α := EReal) r i (k0_pay6 x0 x1 x2 x3 x4 x5 x6) (val_main_v13 (F := Ideal) X0 X1 X2 W1 b1 W2 b2) := by
  unfold k0_pay6 val_main_v13 val_main_v10 val_main_v12 val_main_v11 val_main_v9 val_main_v6 val_main_v8 val_main_v5 val_main_v7 val_main_cst val_main_cst_0
  exact RowEq.addf (RowEq.dense k30x30 w30x30 (RowEq.narrow (RowEq.leaky (z1 H) _ _ _) _) H.w2 _) (RowEq.bias H.c2 _ _ _ _)

/-- leaky z₂ · W₃, the third layer before its bias. -/
theorem z3pre : RowEq (α := EReal) r i (k0_pay7 x0 x1 x2 x3 x4 x5 x6 x7) (val_main_v19 (F := Ideal) X0 X1 X2 W1 b1 W2 b2 W3) := by
  unfold k0_pay7 val_main_v19 val_main_v18 val_main_v15 val_main_v17 val_main_v14 val_main_v16 val_main_cst_1 val_main_cst_2
  exact RowEq.dense k30x30 w30x30 (RowEq.narrow (RowEq.leaky (z2 H) _ _ _) _) H.w3 _

/-- z₃ = leaky z₂ · W₃ + b₃. -/
theorem z3 : RowEq (α := EReal) r i (k0_pay8 (k0_pay7 x0 x1 x2 x3 x4 x5 x6 x7) x8) (val_main_v22 (F := Ideal) X0 X1 X2 W1 b1 W2 b2 W3 b3) := by
  unfold k0_pay8 val_main_v22 val_main_v21 val_main_v20
  exact RowEq.addf (z3pre H) (RowEq.bias H.c3 _ _ _ _)

/-- out = leaky z₃ · W₄ + b₄. -/
theorem out : RowEq (α := EReal) r i (k0_pay9 (k0_pay7 x0 x1 x2 x3 x4 x5 x6 x7) x8 x9 x10) (val_main_v31 (F := Ideal) X0 X1 X2 W1 b1 W2 b2 W3 b3 W4 b4) := by
  unfold k0_pay9 val_main_v31 val_main_v28 val_main_v30 val_main_v29 val_main_v27 val_main_v24 val_main_v26 val_main_v23 val_main_v25 val_main_cst_3 val_main_cst_4
  exact RowEq.addf (RowEq.dense k30x1 w30x1 (RowEq.narrow (RowEq.leaky (z3 H) _ _ _) _) H.w4 _) (RowEq.bias H.c4 _ _ _ _)

/-- g₂ = ((W₄ᵀ ⊙ slope z₃) · W₃ᵀ) ⊙ slope z₂. -/
theorem g2 : RowEq (α := EReal) r i (k0_pay10 (k0_pay6 x0 x1 x2 x3 x4 x5 x6) (k0_pay7 x0 x1 x2 x3 x4 x5 x6 x7) x8 x14 x13) (val_main_v46 (F := Ideal) X0 X1 X2 W1 b1 W2 b2 W3 b3 W4) := by
  unfold k0_pay10 val_main_v46 val_main_v45 val_main_v44 val_main_v43 val_main_v42 val_main_call4_v0 val_main_call4_v1 val_main_cst_8 val_main_cst_9 val_main_cst_10 val_main_v41 val_main_v39 val_main_v38 val_main_v33 val_main_v37 val_main_v36 val_main_v35 val_main_v34 val_main_call3_v0 val_main_call3_v1 val_main_cst_5 val_main_cst_6 val_main_cst_7
  exact RowEq.narrow (RowEq.mulf (RowEq.dense k30x30 w30x30 (RowEq.narrow (RowEq.mulf (RowEq.bias H.r4 _ _ _ _) (RowEq.slope (z3 H) _ _ _ _)) _) H.t3 _) (RowEq.slope (z2 H) _ _ _ _)) _

/-- gx = ((g₂ · W₂ᵀ) ⊙ slope z₁) · W₁ᵀ. -/
theorem gx : RowEq (α := EReal) r i (k0_pay1 (k0_pay5 x0 x1 x2 x3 x4) (k0_pay10 (k0_pay6 x0 x1 x2 x3 x4 x5 x6) (k0_pay7 x0 x1 x2 x3 x4 x5 x6 x7) x8 x14 x13) (Scalar.ofBits (F := Ideal) .f32 0x00000000#32) x12 x11) (val_main_v55 (F := Ideal) X0 X1 X2 W1 b1 W2 b2 W3 b3 W4) := by
  unfold k0_pay1 val_main_v55 val_main_v53 val_main_v52 val_main_v51 val_main_v50 val_main_v49 val_main_call5_v0 val_main_call5_v1 val_main_cst_11 val_main_cst_12 val_main_cst_13 val_main_v48
  exact RowEq.dense k30x9 w30x9 (RowEq.narrow (RowEq.mulf (RowEq.dense k30x30 w30x30 (g2 H) H.t2 _) (RowEq.slope (z1 H) _ _ _ _)) _) H.t1 _

/-- The first four columns of gx. -/
theorem gx_0_4 : RowEq (α := EReal) r i (k0_pay2 (k0_pay5 x0 x1 x2 x3 x4) (k0_pay10 (k0_pay6 x0 x1 x2 x3 x4 x5 x6) (k0_pay7 x0 x1 x2 x3 x4 x5 x6 x7) x8 x14 x13) (Scalar.ofBits (F := Ideal) .f32 0x00000000#32) x12 x11) (val_main_v56 (F := Ideal) X0 X1 X2 W1 b1 W2 b2 W3 b3 W4) := by
  unfold k0_pay2 val_main_v56
  exact RowEq.cols 0 (gx H) _ _

/-- The fifth column of gx. -/
theorem gx_4_5 : RowEq (α := EReal) r i (k0_pay3 (k0_pay5 x0 x1 x2 x3 x4) (k0_pay10 (k0_pay6 x0 x1 x2 x3 x4 x5 x6) (k0_pay7 x0 x1 x2 x3 x4 x5 x6 x7) x8 x14 x13) (Scalar.ofBits (F := Ideal) .f32 0x00000000#32) x12 x11) (val_main_v58 (F := Ideal) X0 X1 X2 W1 b1 W2 b2 W3 b3 W4) := by
  unfold k0_pay3 val_main_v58
  exact RowEq.cols 4 (gx H) _ _

/-- The last four columns of gx. -/
theorem gx_5_9 : RowEq (α := EReal) r i (k0_pay4 (k0_pay5 x0 x1 x2 x3 x4) (k0_pay10 (k0_pay6 x0 x1 x2 x3 x4 x5 x6) (k0_pay7 x0 x1 x2 x3 x4 x5 x6 x7) x8 x14 x13) (Scalar.ofBits (F := Ideal) .f32 0x00000000#32) x12 x11) (val_main_v60 (F := Ideal) X0 X1 X2 W1 b1 W2 b2 W3 b3 W4) := by
  unfold k0_pay4 val_main_v60
  exact RowEq.cols 5 (gx H) _ _

/-! ## What the body leaves in each output window's buffer: one covering store of a payload over whole loads -/

/-- The buffer of `out`. -/
theorem buf_out : RowEq (α := EReal) r i (out0_15 x0 x1 x2 x3 x4 x5 x6 x7 x8 x9 x10 x11 x12 x13 x14) (val_main_v31 (F := Ideal) X0 X1 X2 W1 b1 W2 b2 W3 b3 W4 b4) := by
  unfold out0_15
  rw [View.canon_unit_zero zero_offsets]
  simp only [View.ld_unit_zero (S := S2000x4) zero_offsets, View.ld_unit_zero (S := S2000x1) zero_offsets, View.ld_unit_zero (S := S9x30) zero_offsets, View.ld_unit_zero (S := S1x30) zero_offsets, View.ld_unit_zero (S := S30x30) zero_offsets, View.ld_unit_zero (S := S30x1) zero_offsets, View.ld_unit_zero (S := S1x1) zero_offsets, View.ld_unit_zero (S := S30x9) zero_offsets]
  exact out H

/-- The buffer of `gx[5:9]`. -/
theorem buf_gx_5_9 : RowEq (α := EReal) r i (out0_16 x0 x1 x2 x3 x4 x5 x6 x7 x8 x9 x10 x11 x12 x13 x14) (val_main_v60 (F := Ideal) X0 X1 X2 W1 b1 W2 b2 W3 b3 W4) := by
  unfold out0_16
  rw [View.canon_unit_zero zero_offsets]
  simp only [View.ld_unit_zero (S := S2000x4) zero_offsets, View.ld_unit_zero (S := S2000x1) zero_offsets, View.ld_unit_zero (S := S9x30) zero_offsets, View.ld_unit_zero (S := S1x30) zero_offsets, View.ld_unit_zero (S := S30x30) zero_offsets, View.ld_unit_zero (S := S30x1) zero_offsets, View.ld_unit_zero (S := S1x1) zero_offsets, View.ld_unit_zero (S := S30x9) zero_offsets]
  exact gx_5_9 H

/-- The buffer of `gx[4:5]`. -/
theorem buf_gx_4_5 : RowEq (α := EReal) r i (out0_17 x0 x1 x2 x3 x4 x5 x6 x7 x8 x9 x10 x11 x12 x13 x14) (val_main_v58 (F := Ideal) X0 X1 X2 W1 b1 W2 b2 W3 b3 W4) := by
  unfold out0_17
  rw [View.canon_unit_zero zero_offsets]
  simp only [View.ld_unit_zero (S := S2000x4) zero_offsets, View.ld_unit_zero (S := S2000x1) zero_offsets, View.ld_unit_zero (S := S9x30) zero_offsets, View.ld_unit_zero (S := S1x30) zero_offsets, View.ld_unit_zero (S := S30x30) zero_offsets, View.ld_unit_zero (S := S30x1) zero_offsets, View.ld_unit_zero (S := S1x1) zero_offsets, View.ld_unit_zero (S := S30x9) zero_offsets]
  exact gx_4_5 H

/-- The buffer of `gx[0:4]`. -/
theorem buf_gx_0_4 : RowEq (α := EReal) r i (out0_18 x0 x1 x2 x3 x4 x5 x6 x7 x8 x9 x10 x11 x12 x13 x14) (val_main_v56 (F := Ideal) X0 X1 X2 W1 b1 W2 b2 W3 b3 W4) := by
  unfold out0_18
  rw [View.canon_unit_zero zero_offsets]
  simp only [View.ld_unit_zero (S := S2000x4) zero_offsets, View.ld_unit_zero (S := S2000x1) zero_offsets, View.ld_unit_zero (S := S9x30) zero_offsets, View.ld_unit_zero (S := S1x30) zero_offsets, View.ld_unit_zero (S := S30x30) zero_offsets, View.ld_unit_zero (S := S30x1) zero_offsets, View.ld_unit_zero (S := S1x1) zero_offsets, View.ld_unit_zero (S := S30x9) zero_offsets]
  exact gx_0_4 H

end Cert.Bridge

end
-- ==== Proof.Arrays.lean ====
/-
  The four output arrays after the run are the whole-matrix program's stages of the arguments.

  Grid point `t` of the tile program works on rows `2000·t … 2000·t + 1999`. Its three row tiles are those rows of the
  three inputs and its twelve whole blocks are what the host made of the weights before the region (`tile`), so by
  the row-by-row bridge each output buffer's row `r` is row `2000·t + r` of the corresponding stage; the 500 points'
  blocks cover the arrays.
-/
import proofs.«133073_j23579370455607_1_alg».proof.Proof.InBlocks
import proofs.«133073_j23579370455607_1_alg».proof.Proof.OutBlocks
import proofs.«133073_j23579370455607_1_alg».proof.Proof.Bridge

set_option maxRecDepth 16384

noncomputable section

namespace Cert.KernelIdeal.Arrays

open Cert.KernelIdeal Cert.KernelIdeal.Gen Idealize.ShloMosaic Idealize.ShloMosaic.TcCoe Idealize.ShloMosaic.ValueIdx
open Cert.ReferenceIdeal.Read

variable (m : (ℓ : Loc nD τ sig) → Buf (Elt Ideal) ℓ)

/-- At grid point `t`, row `r` of the input tiles is row `2000·t + r` of the inputs, and the blocks hold the weights. -/
theorem tile (c : Dev nD) (t : Fin cfg0.N) (r : Fin 2000) :
    Cert.Bridge.Tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) r (InBlocks.rowOf t r) where
  h0 := fun a => InBlocks.blk0 m c t r a
  h1 := fun a => InBlocks.blk1 m c t r a
  h2 := fun a => InBlocks.blk2 m c t r a
  w1 := fun j => InBlocks.blk3 m c t j
  c1 := fun q => InBlocks.blk4 m c t q
  w2 := fun j => InBlocks.blk5 m c t j
  c2 := fun q => InBlocks.blk6 m c t q
  w3 := fun j => InBlocks.blk7 m c t j
  c3 := fun q => InBlocks.blk8 m c t q
  w4 := fun j => InBlocks.blk9 m c t j
  c4 := fun q => InBlocks.blk10 m c t q
  t1 := fun j => InBlocks.blk11 m c t j
  t2 := fun j => InBlocks.blk12 m c t j
  t3 := fun j => InBlocks.blk13 m c t j
  r4 := fun q => InBlocks.blk14 m c t q

/-- The array of `out`. -/
theorem arr_out (c : Dev nD) : (dats m 0 c).arrAt 15 cfg0.N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  OutBlocks.final15 m c _ fun t r a => Cert.Bridge.buf_out (tile m c t r) a

/-- The array of `gx[5:9]`. -/
theorem arr_gx_5_9 (c : Dev nD) : (dats m 0 c).arrAt 16 cfg0.N = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  OutBlocks.final16 m c _ fun t r a => Cert.Bridge.buf_gx_5_9 (tile m c t r) a

/-- The array of `gx[4:5]`. -/
theorem arr_gx_4_5 (c : Dev nD) : (dats m 0 c).arrAt 17 cfg0.N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  OutBlocks.final17 m c _ fun t r a => Cert.Bridge.buf_gx_4_5 (tile m c t r) a

/-- The array of `gx[0:4]`. -/
theorem arr_gx_0_4 (c : Dev nD) : (dats m 0 c).arrAt 18 cfg0.N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  OutBlocks.final18 m c _ fun t r a => Cert.Bridge.buf_gx_0_4 (tile m c t r) a

end Cert.KernelIdeal.Arrays

end
-- ==== Proof.lean ====
/-
  The certificate: a tile program for a small perceptron and its input gradient against the whole-matrix program.

  Both programs compute, for every row of three inputs laid side by side, a four-layer perceptron with a leaky
  rectifier and the gradient of its output with respect to the nine inputs, and return the output and three column
  cuts of the gradient (each cut re-shaped to rank three). The tile program works on 2000 rows per grid point with
  its matrix products on operands narrowed to bf16, which over the extended reals is the identity; the operations
  are the same, in the same order, on both sides, and each acts on every row by itself. So the four arrays the tile
  program's 500 grid points write are, row by row, the whole-matrix program's stages (Proof/Bridge.lean over
  Proof/LibRowwise.lean; the blocks each point reads in Proof/InBlocks.lean; the arrays from the blocks in
  Proof/OutBlocks.lean and Proof/Arrays.lean), and the re-shapes after the region are one operation on both sides.
  The frames of the two tile programs are the generated ones; the whole-matrix program's frame is its generated run
  with the results dropped; the idealization rewrote no operation.
-/
import proofs.«133073_j23579370455607_1_alg».proof.Defs
import proofs.«133073_j23579370455607_1_alg».proof.Proof.Gen.Kernel
import proofs.«133073_j23579370455607_1_alg».proof.Proof.Gen.Kernel.Skeleton
import proofs.«133073_j23579370455607_1_alg».proof.Proof.Gen.Kernel.Launch
import proofs.«133073_j23579370455607_1_alg».proof.Proof.Gen.Kernel.Points
import proofs.«133073_j23579370455607_1_alg».proof.Proof.Gen.Kernel.Frame
import proofs.«133073_j23579370455607_1_alg».proof.Proof.Gen.KernelIdeal
import proofs.«133073_j23579370455607_1_alg».proof.Proof.Gen.KernelIdeal.Skeleton
import proofs.«133073_j23579370455607_1_alg».proof.Proof.Gen.KernelIdeal.Launch
import proofs.«133073_j23579370455607_1_alg».proof.Proof.Gen.KernelIdeal.Points
import proofs.«133073_j23579370455607_1_alg».proof.Proof.Gen.KernelIdeal.Frame
import proofs.«133073_j23579370455607_1_alg».proof.Proof.Gen.ReferenceIdeal
import proofs.«133073_j23579370455607_1_alg».proof.Proof.Gen.ReferenceIdeal.Run
import proofs.«133073_j23579370455607_1_alg».proof.Proof.Gen.ReferenceIdeal.Read
import proofs.«133073_j23579370455607_1_alg».proof.Proof.Gen.Pre_finite_inputs
import proofs.«133073_j23579370455607_1_alg».proof.Proof.OutBlocks
import proofs.«133073_j23579370455607_1_alg».proof.Proof.Arrays
import Idealize.ShloMosaic.Adequacy
import Idealize.ShloMosaic.Init

set_option maxRecDepth 16384

noncomputable section

namespace Cert.Proof

open Idealize.ShloMosaic Idealize.SL.Sem Cert.ReferenceIdeal.Read

/-- The word-level tile program's frame is the generated one. -/
theorem frame_tile : Cert.frame_Kernel := fun m ρ _ => Cert.Kernel.Gen.frame m ρ

/-- The idealized tile program's frame is the generated one. -/
theorem frame_tile_ideal : Cert.frame_KernelIdeal := fun m ρ _ => Cert.KernelIdeal.Gen.frame m ρ

/-- The whole-matrix program's frame is its run with the four results dropped. -/
theorem frame_whole : Cert.frame_ReferenceIdeal := fun m ρ _ =>
  (θ_run Cert.ReferenceIdeal.defs _ _).mono (fun _ h c => (h c).2.2.2.2) (Cert.ReferenceIdeal.Value.run (F := Ideal) m ρ)

/-! ## The whole-matrix program's four results, from memories that agree with the tile program's on the arguments -/

theorem whole_v31 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.ReferenceIdeal.nD) :
    Cert.ReferenceIdeal.Value.res_main_v31 m' c = val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  obtain ⟨a0, a1, a2, a3, a4, a5, a6, a7, a8, a9, a10⟩ := hagree c
  rw [val_main_v31_eq, a0, a1, a2, a3, a4, a5, a6, a7, a8, a9, a10]

theorem whole_v61 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.ReferenceIdeal.nD) :
    Cert.ReferenceIdeal.Value.res_main_v61 m' c = val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨a0, a1, a2, a3, a4, a5, a6, a7, a8, a9, a10⟩ := hagree c
  rw [val_main_v61_eq, a0, a1, a2, a3, a4, a5, a6, a7, a8, a9]

theorem whole_v59 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.ReferenceIdeal.nD) :
    Cert.ReferenceIdeal.Value.res_main_v59 m' c = val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨a0, a1, a2, a3, a4, a5, a6, a7, a8, a9, a10⟩ := hagree c
  rw [val_main_v59_eq, a0, a1, a2, a3, a4, a5, a6, a7, a8, a9]

theorem whole_v57 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (c : Dev Cert.ReferenceIdeal.nD) :
    Cert.ReferenceIdeal.Value.res_main_v57 m' c = val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨a0, a1, a2, a3, a4, a5, a6, a7, a8, a9, a10⟩ := hagree c
  rw [val_main_v57_eq, a0, a1, a2, a3, a4, a5, a6, a7, a8, a9]

/-! ## The tile program's four results -/

theorem tile_v19 (m : (ℓ : Loc Cert.KernelIdeal.nD Cert.KernelIdeal.τ Cert.KernelIdeal.sig) → Buf (Elt Ideal) ℓ) (c : Dev Cert.KernelIdeal.nD) :
    shapeCast Cert.KernelIdeal.S1000000x1x4 ((Cert.KernelIdeal.Gen.dats m 0 c).arrAt 16 Cert.KernelIdeal.cfg0.N) Cert.KernelIdeal.Facts₀.shapeCasts_S1000000x4_S1000000x1x4
      = val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [Cert.KernelIdeal.Arrays.arr_gx_5_9]; rfl

theorem tile_v18 (m : (ℓ : Loc Cert.KernelIdeal.nD Cert.KernelIdeal.τ Cert.KernelIdeal.sig) → Buf (Elt Ideal) ℓ) (c : Dev Cert.KernelIdeal.nD) :
    shapeCast Cert.KernelIdeal.S1000000x1x1 ((Cert.KernelIdeal.Gen.dats m 0 c).arrAt 17 Cert.KernelIdeal.cfg0.N) Cert.KernelIdeal.Facts₀.shapeCasts_S1000000x1_S1000000x1x1
      = val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [Cert.KernelIdeal.Arrays.arr_gx_4_5]; rfl

theorem tile_v17 (m : (ℓ : Loc Cert.KernelIdeal.nD Cert.KernelIdeal.τ Cert.KernelIdeal.sig) → Buf (Elt Ideal) ℓ) (c : Dev Cert.KernelIdeal.nD) :
    shapeCast Cert.KernelIdeal.S1000000x1x4 ((Cert.KernelIdeal.Gen.dats m 0 c).arrAt 18 Cert.KernelIdeal.cfg0.N) Cert.KernelIdeal.Facts₀.shapeCasts_S1000000x4_S1000000x1x4
      = val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [Cert.KernelIdeal.Arrays.arr_gx_0_4]; rfl

/-- From memories that agree on the arguments both programs end with the same four results: the whole-matrix
    program's stages `out`, `gx[5:9]`, `gx[4:5]`, `gx[0:4]` (the cuts re-shaped) of the arguments. -/
theorem same_results : Cert.algebraic_KernelIdeal_ReferenceIdeal := by
  intro m ρ m' ρ' _ hagree
  refine ⟨fun c => val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c).1.trans (Cert.KernelIdeal.Arrays.arr_out m c), (h c).2.1.trans (tile_v19 m c), (h c).2.2.1.trans (tile_v18 m c),
        (h c).2.2.2.1.trans (tile_v17 m c), (h c).2.2.2.2⟩) (Cert.KernelIdeal.OutBlocks.run_named m ρ)
  · exact (θ_run Cert.ReferenceIdeal.defs _ _).mono (fun r h c =>
      ⟨(h c).1.trans (whole_v31 m m' hagree c), (h c).2.1.trans (whole_v61 m m' hagree c), (h c).2.2.1.trans (whole_v59 m m' hagree c),
        (h c).2.2.2.1.trans (whole_v57 m m' hagree c), (h c).2.2.2.2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_tile, frame_tile_ideal, frame_whole, trivial, same_results⟩

end Cert.Proof

end
